-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S64x32 : Shape := ⟨2, ![64, 32]⟩
abbrev S_ : Shape := ⟨0, ![]⟩

class Facts : Prop where
  bcast_S_S64x32 : S_.BroadcastsInDim S64x32 (![] : Fin 0 → Fin S64x32.rank)
  reducesTo_S64x32_S_d0_1 : S64x32.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_

variable [Facts]

def fn {F : FTy → Type} [FloatOps F] (main_arg0 : IVec S1000000x1 32) (main_arg1 : FVec F S64x32 .f32) : IVec S_ 1 :=
  let main_v0 : FVec F S64x32 .f32 := Host.absf main_arg1
  let main_cst : FVec F S_ .f32 := constant S_ .f32 0x7F800000#32
  let main_v1 : FVec F S64x32 .f32 := broadcastInDim S64x32 ![] bcast_S_S64x32 main_cst
  let main_v2 : IVec S64x32 1 := cmpf .olt main_v0 main_v1
  let main_c : IVec S_ 1 := constantI S_ 1 1#1
  let main_v3 : IVec S_ 1 := (fun x v => Host.reduce IntOp.andi x v reducesTo_S64x32_S_d0_1 h_S_) main_v2 main_c
  let main_c_0 : IVec S_ 32 := constantI S_ 32 0#32
  let main_v4 : IVec S1000000x1 32 := broadcastInDim S1000000x1 ![] bcast_S_S1000000x1 main_c_0
  let main_v5 : IVec S1000000x1 1 := cmpi .sge main_arg0 main_v4
  let main_c_1 : IVec S_ 32 := constantI S_ 32 64#32
  let main_v6 : IVec S1000000x1 32 := broadcastInDim S1000000x1 ![] bcast_S_S1000000x1 main_c_1
  let main_v7 : IVec S1000000x1 1 := cmpi .slt main_arg0 main_v6
  let main_v8 : IVec S1000000x1 1 := andi main_v5 main_v7
  let main_c_2 : IVec S_ 1 := constantI S_ 1 1#1
  let main_v9 : IVec S_ 1 := (fun x v => Host.reduce IntOp.andi x v reducesTo_S1000000x1_S_d0_1 h_S_) main_v8 main_c_2
  let main_v10 : IVec S_ 1 := andi main_v3 main_v9
  main_v10
-- ==== Kernel.lean ====
abbrev S1000000x1 : Shape := ⟨2, ![1000000, 1]⟩
abbrev S64x32 : Shape := ⟨2, ![64, 32]⟩
abbrev S1000000 : Shape := ⟨1, ![1000000]⟩
abbrev S_ : Shape := ⟨0, ![]⟩
abbrev S250000x4 : Shape := ⟨2, ![250000, 4]⟩
abbrev S4x250000 : Shape := ⟨2, ![4, 250000]⟩
abbrev S256x128 : Shape := ⟨2, ![256, 128]⟩
abbrev S1 : Shape := ⟨1, ![1]⟩
abbrev S2 : Shape := ⟨1, ![2]⟩
abbrev S250000x128 : Shape := ⟨2, ![250000, 128]⟩
abbrev S1000000x32 : Shape := ⟨2, ![1000000, 32]⟩
abbrev S4x8192 : Shape := ⟨2, ![4, 8192]⟩
abbrev S8192x128 : Shape := ⟨2, ![8192, 128]⟩
abbrev S8192x64 : Shape := ⟨2, ![8192, 64]⟩
abbrev S1x8192 : Shape := ⟨2, ![1, 8192]⟩
abbrev S8192 : Shape := ⟨1, ![8192]⟩
abbrev S8192x1 : Shape := ⟨2, ![8192, 1]⟩
abbrev S8192x256 : Shape := ⟨2, ![8192, 256]⟩
abbrev S32 : Shape := ⟨1, ![32]⟩
abbrev S1x32 : Shape := ⟨2, ![1, 32]⟩

abbrev nBuf : Space → Nat
  | .hbm => 42
  | .vmem => 5
  | .smem => 0
  | _ => 0

abbrev bufTy : (tb : Table) → Fin (tcTables nBuf tb) → BufTy
  | .hbm, ⟨0, _⟩ => ⟨S1000000x1, .i32⟩
  | .hbm, ⟨1, _⟩ => ⟨S64x32, .f32⟩
  | .hbm, ⟨2, _⟩ => ⟨S1000000, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S250000x4, .i32⟩
  | .hbm, ⟨12, _⟩ => ⟨S4x250000, .i32⟩
  | .hbm, ⟨13, _⟩ => ⟨S_, .f32⟩
  | .hbm, ⟨14, _⟩ => ⟨S256x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S256x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S256x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S256x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S256x128, .f32⟩
  | .hbm, ⟨39, _⟩ => ⟨S256x128, .bf16⟩
  | .hbm, ⟨40, _⟩ => ⟨S250000x128, .f32⟩
  | .hbm, ⟨41, _⟩ => ⟨S1000000x32, .f32⟩
  | .local _ .vmem, ⟨0, _⟩ => ⟨S4x8192, .i32⟩
  | .local _ .vmem, ⟨1, _⟩ => ⟨S4x8192, .i32⟩
  | .local _ .vmem, ⟨2, _⟩ => ⟨S256x128, .bf16⟩
  | .local _ .vmem, ⟨3, _⟩ => ⟨S8192x128, .f32⟩
  | .local _ .vmem, ⟨4, _⟩ => ⟨S8192x128, .f32⟩
  | _, _ => ⟨S1000000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_c_0 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_cst : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_c_4 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c_5 : Ref sig .tc := ⟨.hbm, 27, rfl⟩
abbrev main_call0_v13 : Ref sig .tc := ⟨.hbm, 28, rfl⟩
abbrev main_call0_c_6 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_c_7 : Ref sig .tc := ⟨.hbm, 33, rfl⟩
abbrev main_call0_v17 : Ref sig .tc := ⟨.hbm, 34, rfl⟩
abbrev main_call0_c_8 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_v0 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1000000x1_S1000000 : S1000000x1.ShapeCasts S1000000
  bcast_S_S1000000 : S_.BroadcastsInDim S1000000 (![] : Fin 0 → Fin S1000000.rank)
  shapeCasts_S1000000_S250000x4 : S1000000.ShapeCasts S250000x4
  transposes_S250000x4_S4x250000_1_0 : S250000x4.Transposes [1, 0] S4x250000
  bcast_S_S256x128 : S_.BroadcastsInDim S256x128 (![] : Fin 0 → Fin S256x128.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  shapeCasts_S250000x128_S1000000x32 : S250000x128.ShapeCasts S1000000x32
  iota_S8192x64_d1_w32 : S8192x64.Iotas .tc 32 [1]
  inb_S4x8192_S1x8192_0_0 : ∀ a, (![0, 0] : Fin 2 → Nat) a + S1x8192.size a ≤ S4x8192.size a
  h_S1x8192 : 0 < S1x8192.numel
  shapeCasts_S1x8192_S8192 : S1x8192.ShapeCasts S8192
  shapeCasts_S8192_S8192x1 : S8192.ShapeCasts S8192x1
  shapeCasts_S8192x1_S8192x1 : S8192x1.ShapeCasts S8192x1
  broadcasts_S8192x1_S8192x64 : S8192x1.Broadcasts S8192x64
  natLt_1_32 : 1 < 32
  inb_S4x8192_S1x8192_1_0 : ∀ a, (![1, 0] : Fin 2 → Nat) a + S1x8192.size a ≤ S4x8192.size a
  inb_S4x8192_S1x8192_2_0 : ∀ a, (![2, 0] : Fin 2 → Nat) a + S1x8192.size a ≤ S4x8192.size a
  inb_S4x8192_S1x8192_3_0 : ∀ a, (![3, 0] : Fin 2 → Nat) a + S1x8192.size a ≤ S4x8192.size a
  concatenates_S8192x64_S8192x64_S8192x64_S8192x64_S8192x256_d1 : Shape.Concatenates [S8192x64, S8192x64, S8192x64, S8192x64] S8192x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  inb_S8192x128_S1x32_0_0 : ∀ a, (![0, 0] : Fin 2 → Nat) a + S1x32.size a ≤ S8192x128.size a
  h_S1x32 : 0 < S1x32.numel
  shapeCasts_S1x32_S32 : S1x32.ShapeCasts S32
  shapeCasts_S32_S1x32 : S32.ShapeCasts S1x32
  scatter_S256x128_S2_S64x32_01_n_01_0_wf : ScatterDims.WF S256x128 S2 S64x32 [0, 1] [] [0, 1] 0
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x8192.size a < S4x250000.size a
  hwx0_0 : ∀ i : grid0.Coords, EltTy.bits .i32 = 32 ∨ (Rect.unit (s := S4x250000) (fun a => cc0_transform_0 i a * S4x8192.size a) (fun a => (Pipeline.Clip.of (cc0_transform_0 i a) (S4x8192.size a) (S4x250000.size a)).extent (S4x8192.size a)) fun a => Pipeline.Clip.inb (Pipeline.Clip.ok_of (hstart0_0 i a))).WholeWords (EltTy.packing .i32)
  hwxs0_0 : ∀ i : grid0.Coords, EltTy.bits .i32 = 32 ∨ (Rect.unit (s := S4x8192) (fun _ => 0) (fun a => (Pipeline.Clip.of (cc0_transform_0 i a) (S4x8192.size a) (S4x250000.size a)).extent (S4x8192.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S250000x128.size a
  hwx0_2 : ∀ i : grid0.Coords, EltTy.bits .f32 = 32 ∨ (Rect.unit (s := S250000x128) (fun a => cc0_transform_2 i a * S8192x128.size a) (fun a => (Pipeline.Clip.of (cc0_transform_2 i a) (S8192x128.size a) (S250000x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S250000x128.size a)).extent (S8192x128.size a)) fun a => (Nat.zero_add _).trans_le (Pipeline.Clip.extent_le (Pipeline.Clip.ok_of (hstart0_2 i a)))).WholeWords (EltTy.packing .f32)

variable [Facts₀]

def scatter_S256x128_S2_S64x32_01_n_01_0 : ScatterDims S256x128 S2 S64x32 where
  updateWindowDims := [0, 1]
  insertedWindowDims := []
  scatterDimsToOperandDims := [0, 1]
  indexVectorDim := 0
  wf := scatter_S256x128_S2_S64x32_01_n_01_0_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpecClip (Memref.whole main_call0_v3) S4x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v21) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v22) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S64x32 : Shape := ⟨2, ![64, 32]⟩
abbrev S1000000 : Shape := ⟨1, ![1000000]⟩
abbrev S_ : Shape := ⟨0, ![]⟩
abbrev S1 : Shape := ⟨1, ![1]⟩
abbrev S1x1 : Shape := ⟨2, ![1, 1]⟩
abbrev S1000000x32 : Shape := ⟨2, ![1000000, 32]⟩
abbrev S32 : Shape := ⟨1, ![32]⟩

abbrev nBuf : Space → Nat
  | .hbm => 31
  | .vmem => 0
  | .smem => 0
  | _ => 0

abbrev bufTy : (tb : Table) → Fin (tcTables nBuf tb) → BufTy
  | .hbm, ⟨0, _⟩ => ⟨S1000000x1, .i32⟩
  | .hbm, ⟨1, _⟩ => ⟨S64x32, .f32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S1, .i32⟩
  | .hbm, ⟨12, _⟩ => ⟨S_, .i32⟩
  | .hbm, ⟨13, _⟩ => ⟨S1000000x1, .i32⟩
  | .hbm, ⟨14, _⟩ => ⟨S1000000x1, .i1⟩
  | .hbm, ⟨15, _⟩ => ⟨S1x1, .i32⟩
  | .hbm, ⟨16, _⟩ => ⟨S1000000x1, .i32⟩
  | .hbm, ⟨17, _⟩ => ⟨S1000000x1, .i1⟩
  | .hbm, ⟨18, _⟩ => ⟨S1000000x1, .i1⟩
  | .hbm, ⟨19, _⟩ => ⟨S_, .i1⟩
  | .hbm, ⟨20, _⟩ => ⟨S1000000, .i1⟩
  | .hbm, ⟨21, _⟩ => ⟨S1000000x32, .f32⟩
  | .hbm, ⟨22, _⟩ => ⟨S1000000x32, .i1⟩
  | .hbm, ⟨23, _⟩ => ⟨S_, .f32⟩
  | .hbm, ⟨24, _⟩ => ⟨S1000000x32, .f32⟩
  | .hbm, ⟨25, _⟩ => ⟨S1000000x32, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S32, .f32⟩
  | .hbm, ⟨30, _⟩ => ⟨S1000000x32, .f32⟩
  | _, _ => ⟨S1000000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x32_0 : S1000000.BroadcastsInDim S1000000x32 (![0] : Fin 1 → Fin S1000000x32.rank)
  bcast_S_S1000000x32 : S_.BroadcastsInDim S1000000x32 (![] : Fin 0 → Fin S1000000x32.rank)
  bcast_S_S1 : S_.BroadcastsInDim S1 (![] : Fin 0 → Fin S1.rank)
  bcast_S_S32 : S_.BroadcastsInDim S32 (![] : Fin 0 → Fin S32.rank)
  gather_S64x32_S1000000x1_S1000000x32_1_0_n_n_0_1_132_wf : GatherDims.WF S64x32 S1000000x1 S1000000x32 [1] [0] [] [0] [] 1 ![1, 32]
  scatter_S1000000x32_S1_S32_0_0_0_0_wf : ScatterDims.WF S1000000x32 S1 S32 [0] [0] [0] 0

variable [Facts₀]

def gather_S64x32_S1000000x1_S1000000x32_1_0_n_n_0_1_132 : GatherDims S64x32 S1000000x1 S1000000x32 where
  offsetDims := [1]
  collapsedSliceDims := [0]
  operandBatchingDims := []
  startIndicesBatchingDims := []
  startIndexMap := [0]
  indexVectorDim := 1
  sliceSizes := ![1, 32]
  wf := gather_S64x32_S1000000x1_S1000000x32_1_0_n_n_0_1_132_wf
def scatter_S1000000x32_S1_S32_0_0_0_0 : ScatterDims S1000000x32 S1 S32 where
  updateWindowDims := [0]
  insertedWindowDims := [0]
  scatterDimsToOperandDims := [0]
  indexVectorDim := 0
  wf := scatter_S1000000x32_S1_S32_0_0_0_0_wf

class Facts : Prop extends Facts₀ where

variable [Facts]
-- ==== Proof.BodyK.lean ====
/-
  The kernel body's Hoare triple, at any float instance. On whole staging buffers — the labels'
  (4 × 8192 words) at contents `x0`, the table's (256 × 128) at `x1`, the result's at anything —
  the body loads the four label rows and the table, stores the whole product block
  (`Gen.k0_pay2` of the five loads), and, at the grid's first point only, overwrites the first
  32 lanes of row 0 with the zero splat (`Gen.k0_pay1`). The two buffers it only reads are left
  as found; the result's buffer ends at the canonical contents of those one or two stores.
-/
import proofs.«405251_j5772436046293_3_alg».proof.Proof.Gen.Kernel.Launch
import proofs.«405251_j5772436046293_3_alg».proof.Proof.Gen.Kernel.Skeleton
import proofs.«405251_j5772436046293_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Row `s` of the labels' buffer, one of its four. -/
abbrev rL0 : Rect S4x8192 := Rect.unit (s := S4x8192) ![0, 0] S1x8192.size inb_S4x8192_S1x8192_0_0
abbrev rL1 : Rect S4x8192 := Rect.unit (s := S4x8192) ![1, 0] S1x8192.size inb_S4x8192_S1x8192_1_0
abbrev rL2 : Rect S4x8192 := Rect.unit (s := S4x8192) ![2, 0] S1x8192.size inb_S4x8192_S1x8192_2_0
abbrev rL3 : Rect S4x8192 := Rect.unit (s := S4x8192) ![3, 0] S1x8192.size inb_S4x8192_S1x8192_3_0
/-- The whole table, the whole result block, and the first 32 lanes of the result's row 0. -/
abbrev rT : Rect S256x128 := Rect.unit (s := S256x128) ![0, 0] S256x128.size inb_S256x128_S256x128_0_0
abbrev rW : Rect S8192x128 := Rect.unit (s := S8192x128) ![0, 0] S8192x128.size inb_S8192x128_S8192x128_0_0
abbrev rZ : Rect S8192x128 := Rect.unit (s := S8192x128) ![0, 0] S1x32.size inb_S8192x128_S1x32_0_0

/-! ## What the body leaves in the result's buffer -/

/-- The product block: the body's one whole store, of the four label rows and the table. -/
def prod (x0 : Vec F S4x8192 .i32) (x1 : Vec F S256x128 .bf16) : Vec F S8192x128 .f32 :=
  k0_pay2 (View.ld x0 rL0) (View.ld x0 rL1) (View.ld x0 rL2) (View.ld x0 rL3) (View.ld x1 rT)

/-- At a point other than the first: the product block, stored whole. -/
def outLater (x0 : Vec F S4x8192 .i32) (x1 : Vec F S256x128 .bf16) : Vec F S8192x128 .f32 :=
  View.canon [⟨rW, prod x0 x1⟩]

/-- At the first point: the product block with the zero splat stored over row 0's first 32 lanes. -/
def outFirst (x0 : Vec F S4x8192 .i32) (x1 : Vec F S256x128 .bf16) : Vec F S8192x128 .f32 :=
  View.canon [⟨rZ, k0_pay1 (F := F)⟩, ⟨rW, prod x0 x1⟩]

/-- The whole store covers the buffer, alone or under the later patch. -/
theorem coverLater (p : Vec F S8192x128 .f32) (y : S8192x128.Idx) :
    ∃ pc ∈ ([⟨rW, p⟩] : List (View.Piece (Elt F) S8192x128 .f32)), y ∈ pc.1.set :=
  ⟨_, List.mem_singleton_self _, View.mem_set_unit_zero (funext fun a => by fin_cases a <;> rfl) inb_S8192x128_S8192x128_0_0 y⟩
theorem coverFirst (z : (rZ).shape.Idx → Elt F .f32) (p : Vec F S8192x128 .f32) (y : S8192x128.Idx) :
    ∃ pc ∈ ([⟨rZ, z⟩, ⟨rW, p⟩] : List (View.Piece (Elt F) S8192x128 .f32)), y ∈ pc.1.set :=
  ⟨_, List.mem_cons_of_mem _ (List.mem_singleton_self _), View.mem_set_unit_zero (funext fun a => by fin_cases a <;> rfl) inb_S8192x128_S8192x128_0_0 y⟩

/-! ## The branch on the grid coordinate -/

/-- The body's one conditional, as the skeleton's scalar chain over the grid coordinate: "this is point 0". -/
abbrev isFirst (i : grid0.Coords) : Prop :=
  (Scalar.cmpi .ne (Scalar.extui (Scalar.cmpi .eq (BitVec.ofNat 32 (i 0).val) 0#32)) 0#32) = 1#1

/-- It holds at the first point only — decided over the 31 points. -/
theorem isFirst_iff : ∀ t : Fin cfg0.N, isFirst (grid0.coords t) ↔ t.val = 0 :=
  (by decide +kernel : ∀ t : Fin grid0.N, isFirst (grid0.coords t) ↔ t.val = 0)

/-! ## The body's triple, case by case -/

set_option maxHeartbeats 2000000 in
/-- At a point other than the first the conditional is skipped: one store. -/
theorem sound_later (c : Dev nD) (E : Set ℕ) (i : grid0.Coords) (hc : ¬ isFirst i)
    (arg1 : Memref sig .tc .vmem S4x8192 .i32) (harg1 : arg1.IsWhole) (arg2 : Memref sig .tc .vmem S256x128 .bf16) (harg2 : arg2.IsWhole)
    (arg3 : Memref sig .tc .vmem S8192x128 .f32) (harg3 : arg3.IsWhole)
    (x0 : Vec F S4x8192 .i32) (x1 : Vec F S256x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outLater x0 x1)) -∗ K ⟨⟩))
      ⊢ wp frame (wpE (defs₀ (F := F)) Variants.none c none) E (cc0__embedding_kernel i arg1 harg1 arg2 harg2 arg3 harg3) K := by
  simp only [cc0__embedding_kernel_eq_skeleton]; unfold cc0__embedding_kernel_skel
  simp only [k0_part1_eq_skeleton]
  unfold owns
  iintro ⟨⟨%f0, %hf0, H0⟩, ⟨%f1, %hf1, H1⟩, ⟨%d2, %f2, -, H2⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverLater _)

set_option maxHeartbeats 2000000 in
/-- At the first point the conditional is taken: the whole store, then the patch of row 0. -/
theorem sound_first (c : Dev nD) (E : Set ℕ) (i : grid0.Coords) (hc : isFirst i)
    (arg1 : Memref sig .tc .vmem S4x8192 .i32) (harg1 : arg1.IsWhole) (arg2 : Memref sig .tc .vmem S256x128 .bf16) (harg2 : arg2.IsWhole)
    (arg3 : Memref sig .tc .vmem S8192x128 .f32) (harg3 : arg3.IsWhole)
    (x0 : Vec F S4x8192 .i32) (x1 : Vec F S256x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outFirst x0 x1)) -∗ K ⟨⟩))
      ⊢ wp frame (wpE (defs₀ (F := F)) Variants.none c none) E (cc0__embedding_kernel i arg1 harg1 arg2 harg2 arg3 harg3) K := by
  simp only [cc0__embedding_kernel_eq_skeleton]; unfold cc0__embedding_kernel_skel
  simp only [k0_part1_eq_skeleton]
  unfold owns
  iintro ⟨⟨%f0, %hf0, H0⟩, ⟨%f1, %hf1, H1⟩, ⟨%d2, %f2, -, H2⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverFirst _ _)

end Cert.Kernel.Body

end
-- ==== Proof.FrameK.lean ====
/-
  The word-level program's frame. Its claim says nothing of what the kernel computes: only that every
  weakly fair execution of @main terminates without a fault and leaves the two argument arrays as they
  were. So the proof data here forget every staging buffer's contents: the body is handed the three
  buffers at anything and hands them back at anything, which is what its triple gives in both control
  cases; the argument arrays are no array of the pipeline, no host line after the region writes them,
  and no host line before the region wrote them.
-/
import proofs.«405251_j5772436046293_3_alg».proof.Proof.BodyK
import proofs.«405251_j5772436046293_3_alg».proof.Proof.Gen.Kernel.Frame

set_option maxRecDepth 16384

noncomputable section

namespace Cert.Kernel.FrameK

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's staging contents are forgotten. -/
def forgetAll : Fin 3 → Bool := fun _ => true

/-- The proof data: the arrays as the region finds them; what the body leaves, unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`, and what it returns: the three buffers at anything. -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  by_cases h0 : t.val = 0
  · iapply (sound_first c Set.univ (grid0.coords t) ((isFirst_iff t).mpr h0) _ _ _ _ _ _ X0 X1 _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists _; iexact H0
    isplitl [H1]; · iexists _; iexact H1
    iexists _; iexact H2
  · iapply (sound_later c Set.univ (grid0.coords t) (fun h => h0 ((isFirst_iff t).mp h)) _ _ _ _ _ _ X0 X1 _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexists _; iexact H0
    isplitl [H1]; · iexists _; iexact H1
    iexists _; iexact H2

/-- The library's body obligation with every window forgotten. -/
theorem body_obligation (c : Dev nD) :
    BodyObligationLoose (dats (F := F) m 0 c) (defs₀ (F := F)) Variants.none () Set.univ forgetAll := fun t => by
  rw [bigSep_W0, bigSep_W0]
  exact sound_body m c t

/-- The one buffer the host line after the region writes: @main's result. -/
def tailWrites : Finset (Ref sig .tc) := {main_v0}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective _ hb)

set_option backward.isDefEq.respectTransparency.types false in
/-- The run: every weakly fair execution of @main terminates, and every unscoped buffer that is no array of the
    pipeline and that the host line after the region does not write ends as the region found it. -/
theorem run_main : θ_run defs (onTc (τ := τ) (main (F := F))) (s₀ m ρ)
    (Pipeline.RDat.FramePostR (cfgs 0) (fun c => (dats m 0 c).toRForget forgetAll) tailWrites (fun c b => V0 m c (Proc.devRef .tc b))) :=
  Pipeline.RDat.θ_run_frame_around_T cfgs (0 : Fin 1) launch0 defs₀ Variants.none (fun c => (dats m 0 c).toRForget forgetAll) tailWrites m ρ main
    (hbody := fun c => (body_obligation m c).toRForget) (hshare := fun c => ((dats m 0 c).toRForget forgetAll).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.FrameK

end
-- ==== Proof.BodyI.lean ====
/-
  The kernel body's Hoare triple, at any float instance. On whole staging buffers — the labels'
  (4 × 8192 words) at contents `x0`, the table's (256 × 128) at `x1`, the result's at anything —
  the body loads the four label rows and the table, stores the whole product block
  (`Gen.k0_pay2` of the five loads), and, at the grid's first point only, overwrites the first
  32 lanes of row 0 with the zero splat (`Gen.k0_pay1`). The two buffers it only reads are left
  as found; the result's buffer ends at the canonical contents of those one or two stores.
-/
import proofs.«405251_j5772436046293_3_alg».proof.Proof.Gen.KernelIdeal.Launch
import proofs.«405251_j5772436046293_3_alg».proof.Proof.Gen.KernelIdeal.Skeleton
import proofs.«405251_j5772436046293_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Row `s` of the labels' buffer, one of its four. -/
abbrev rL0 : Rect S4x8192 := Rect.unit (s := S4x8192) ![0, 0] S1x8192.size inb_S4x8192_S1x8192_0_0
abbrev rL1 : Rect S4x8192 := Rect.unit (s := S4x8192) ![1, 0] S1x8192.size inb_S4x8192_S1x8192_1_0
abbrev rL2 : Rect S4x8192 := Rect.unit (s := S4x8192) ![2, 0] S1x8192.size inb_S4x8192_S1x8192_2_0
abbrev rL3 : Rect S4x8192 := Rect.unit (s := S4x8192) ![3, 0] S1x8192.size inb_S4x8192_S1x8192_3_0
/-- The whole table, the whole result block, and the first 32 lanes of the result's row 0. -/
abbrev rT : Rect S256x128 := Rect.unit (s := S256x128) ![0, 0] S256x128.size inb_S256x128_S256x128_0_0
abbrev rW : Rect S8192x128 := Rect.unit (s := S8192x128) ![0, 0] S8192x128.size inb_S8192x128_S8192x128_0_0
abbrev rZ : Rect S8192x128 := Rect.unit (s := S8192x128) ![0, 0] S1x32.size inb_S8192x128_S1x32_0_0

/-! ## What the body leaves in the result's buffer -/

/-- The product block: the body's one whole store, of the four label rows and the table. -/
def prod (x0 : Vec F S4x8192 .i32) (x1 : Vec F S256x128 .bf16) : Vec F S8192x128 .f32 :=
  k0_pay2 (View.ld x0 rL0) (View.ld x0 rL1) (View.ld x0 rL2) (View.ld x0 rL3) (View.ld x1 rT)

/-- At a point other than the first: the product block, stored whole. -/
def outLater (x0 : Vec F S4x8192 .i32) (x1 : Vec F S256x128 .bf16) : Vec F S8192x128 .f32 :=
  View.canon [⟨rW, prod x0 x1⟩]

/-- At the first point: the product block with the zero splat stored over row 0's first 32 lanes. -/
def outFirst (x0 : Vec F S4x8192 .i32) (x1 : Vec F S256x128 .bf16) : Vec F S8192x128 .f32 :=
  View.canon [⟨rZ, k0_pay1 (F := F)⟩, ⟨rW, prod x0 x1⟩]

/-- The whole store covers the buffer, alone or under the later patch. -/
theorem coverLater (p : Vec F S8192x128 .f32) (y : S8192x128.Idx) :
    ∃ pc ∈ ([⟨rW, p⟩] : List (View.Piece (Elt F) S8192x128 .f32)), y ∈ pc.1.set :=
  ⟨_, List.mem_singleton_self _, View.mem_set_unit_zero (funext fun a => by fin_cases a <;> rfl) inb_S8192x128_S8192x128_0_0 y⟩
theorem coverFirst (z : (rZ).shape.Idx → Elt F .f32) (p : Vec F S8192x128 .f32) (y : S8192x128.Idx) :
    ∃ pc ∈ ([⟨rZ, z⟩, ⟨rW, p⟩] : List (View.Piece (Elt F) S8192x128 .f32)), y ∈ pc.1.set :=
  ⟨_, List.mem_cons_of_mem _ (List.mem_singleton_self _), View.mem_set_unit_zero (funext fun a => by fin_cases a <;> rfl) inb_S8192x128_S8192x128_0_0 y⟩

/-! ## The branch on the grid coordinate -/

/-- The body's one conditional, as the skeleton's scalar chain over the grid coordinate: "this is point 0". -/
abbrev isFirst (i : grid0.Coords) : Prop :=
  (Scalar.cmpi .ne (Scalar.extui (Scalar.cmpi .eq (BitVec.ofNat 32 (i 0).val) 0#32)) 0#32) = 1#1

/-- It holds at the first point only — decided over the 31 points. -/
theorem isFirst_iff : ∀ t : Fin cfg0.N, isFirst (grid0.coords t) ↔ t.val = 0 :=
  (by decide +kernel : ∀ t : Fin grid0.N, isFirst (grid0.coords t) ↔ t.val = 0)

/-! ## The body's triple, case by case -/

set_option maxHeartbeats 2000000 in
/-- At a point other than the first the conditional is skipped: one store. -/
theorem sound_later (c : Dev nD) (E : Set ℕ) (i : grid0.Coords) (hc : ¬ isFirst i)
    (arg1 : Memref sig .tc .vmem S4x8192 .i32) (harg1 : arg1.IsWhole) (arg2 : Memref sig .tc .vmem S256x128 .bf16) (harg2 : arg2.IsWhole)
    (arg3 : Memref sig .tc .vmem S8192x128 .f32) (harg3 : arg3.IsWhole)
    (x0 : Vec F S4x8192 .i32) (x1 : Vec F S256x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outLater x0 x1)) -∗ K ⟨⟩))
      ⊢ wp frame (wpE (defs₀ (F := F)) Variants.none c none) E (cc0__embedding_kernel i arg1 harg1 arg2 harg2 arg3 harg3) K := by
  simp only [cc0__embedding_kernel_eq_skeleton]; unfold cc0__embedding_kernel_skel
  simp only [k0_part1_eq_skeleton]
  unfold owns
  iintro ⟨⟨%f0, %hf0, H0⟩, ⟨%f1, %hf1, H1⟩, ⟨%d2, %f2, -, H2⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverLater _)

set_option maxHeartbeats 2000000 in
/-- At the first point the conditional is taken: the whole store, then the patch of row 0. -/
theorem sound_first (c : Dev nD) (E : Set ℕ) (i : grid0.Coords) (hc : isFirst i)
    (arg1 : Memref sig .tc .vmem S4x8192 .i32) (harg1 : arg1.IsWhole) (arg2 : Memref sig .tc .vmem S256x128 .bf16) (harg2 : arg2.IsWhole)
    (arg3 : Memref sig .tc .vmem S8192x128 .f32) (harg3 : arg3.IsWhole)
    (x0 : Vec F S4x8192 .i32) (x1 : Vec F S256x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outFirst x0 x1)) -∗ K ⟨⟩))
      ⊢ wp frame (wpE (defs₀ (F := F)) Variants.none c none) E (cc0__embedding_kernel i arg1 harg1 arg2 harg2 arg3 harg3) K := by
  simp only [cc0__embedding_kernel_eq_skeleton]; unfold cc0__embedding_kernel_skel
  simp only [k0_part1_eq_skeleton]
  unfold owns
  iintro ⟨⟨%f0, %hf0, H0⟩, ⟨%f1, %hf1, H1⟩, ⟨%d2, %f2, -, H2⟩, Hk⟩
  subst hf0 hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverFirst _ _)

end Cert.KernelIdeal.Body

end
-- ==== Proof.Spec.lean ====
/-
  The function both programs compute, stated once over the argument arrays and over no program:
  an embedding lookup with its first row cleared. For a column `b` of a million batch labels and a
  table `w` of 64 rows of 32 reals, row `i` of the result is row `b i` of the table, except row 0,
  which is zero. The labels are read as naturals below 64 (`InRange`): outside that range the two
  programs treat a label differently (one clamps it, the other wraps a negative one and marks the
  rest invalid), so the equation between them is stated for labels in range only.
-/
import Idealize.ShloMosaic.PureOps.Ideal
import Idealize.ShloMosaic.Lib.ValueIdx

noncomputable section

namespace Cert.Embed

open Idealize.ShloMosaic Idealize.ShloMosaic.ValueIdx

/-- The labels' column, the table, the result. -/
abbrev SB : Shape := ⟨2, ![1000000, 1]⟩
abbrev SW : Shape := ⟨2, ![64, 32]⟩
abbrev SO : Shape := ⟨2, ![1000000, 32]⟩

/-- Every label is one of the 64 batches: as a signed word it lies in `[0, 64)`. -/
def InRange (b : IVec SB 32) : Prop :=
  ∀ i : Fin 1000000, 0 ≤ (b (ix2 i (0 : Fin 1))).toInt ∧ (b (ix2 i (0 : Fin 1))).toInt < 64

/-- The table row a label selects (the label's value as a natural, folded into the table's 64 rows so
    that the function is total; for a label in range the fold is the identity). -/
def rowOf (b : IVec SB 32) (i : Fin 1000000) : Fin 64 :=
  ⟨(b (ix2 i (0 : Fin 1))).toNat % 64, Nat.mod_lt _ (by decide)⟩

/-- The lookup: row `i` of the result is the table's row `rowOf b i`; row 0 is cleared. -/
def effect (b : IVec SB 32) (w : FVec Ideal SW .f32) : FVec Ideal SO .f32 :=
  fun j => if (j 0).val = 0 then (0 : EReal) else w (ix2 (rowOf b (j 0)) (j 1))

/-- A label in range is its own natural value, below 64. -/
theorem toNat_lt_of_inRange {b : IVec SB 32} (hb : InRange b) (i : Fin 1000000) :
    (b (ix2 i (0 : Fin 1))).toNat < 64 := by
  obtain ⟨h0, h1⟩ := hb i
  have hlt : (b (ix2 i (0 : Fin 1))).toNat < 2 ^ 32 := (b (ix2 i (0 : Fin 1))).isLt
  rw [BitVec.toInt_eq_toNat_cond] at h0 h1
  by_cases h : 2 * (b (ix2 i (0 : Fin 1))).toNat < 2 ^ 32
  · rw [if_pos h] at h0 h1; omega
  · rw [if_neg h] at h0 h1; omega

theorem rowOf_val_of_inRange {b : IVec SB 32} (hb : InRange b) (i : Fin 1000000) :
    (rowOf b i).val = (b (ix2 i (0 : Fin 1))).toNat :=
  Nat.mod_eq_of_lt (toNat_lt_of_inRange hb i)

end Cert.Embed

end
-- ==== Proof.Payload.lean ====
/-
  The kernel body's stored block, read at an index, at the ideal values.

  The block is a product. Its left factor has one row per group g of four cells and 256 lanes: lanes 64 s .. 64 s + 63
  hold the one-hot of the label of slot s of the group (a one in the lane the label names, zeros elsewhere), built by
  comparing the label, spread over 64 lanes, with the lane number. Its right factor is the staged 256 x 128 table. So
  entry (g, l) of the block is the sum over the 256 lanes κ of [label of slot κ / 64 of group g is κ % 64] times the
  table's entry (κ, l) (pay2_apply); it depends on the four labels of group g only (pay2_congr); and against a table that
  is block diagonal — entry (κ, l) is T (κ % 64, l % 32) when κ / 64 = l / 32 and zero otherwise — every term but one
  vanishes, and entry (g, 32 s + j) is T (label of slot s, j) for a label below 64 (pay2_lookup). That last step uses
  only 0 * x = 0, x * 0 = 0 and 1 * x = x, which hold for every extended real, so it asks nothing of the table's entries.
-/
import proofs.«405251_j5772436046293_3_alg».proof.Proof.Gen.KernelIdeal.Skeleton
import proofs.«405251_j5772436046293_3_alg».proof.Proof.Spec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-- The product's dimension numbers: rows by the 256-deep contraction, contraction by columns. -/
abbrev DD : DotDims S8192x256 S256x128 S8192x128 := dot_S8192x256_S256x128_S8192x128_1_0_0_1_n_n

theorem lhs_0 (j : S8192x128.Idx) (k : DD.contr.Idx) : (DD.lhsIdx j k 0 : ℕ) = j 0 := by
  simp [DotDims.lhsIdx, DD, dot_S8192x256_S256x128_S8192x128_1_0_0_1_n_n]; rfl
theorem lhs_1 (j : S8192x128.Idx) (k : DD.contr.Idx) : (DD.lhsIdx j k 1 : ℕ) = k ⟨0, by decide⟩ := by
  simp [DotDims.lhsIdx, DD, dot_S8192x256_S256x128_S8192x128_1_0_0_1_n_n]; rfl
theorem rhs_0 (j : S8192x128.Idx) (k : DD.contr.Idx) : (DD.rhsIdx j k 0 : ℕ) = k ⟨0, by decide⟩ := by
  simp [DotDims.rhsIdx, DD, dot_S8192x256_S256x128_S8192x128_1_0_0_1_n_n]; rfl
theorem rhs_1 (j : S8192x128.Idx) (k : DD.contr.Idx) : (DD.rhsIdx j k 1 : ℕ) = j 1 := by
  simp [DotDims.rhsIdx, DD, dot_S8192x256_S256x128_S8192x128_1_0_0_1_n_n]; rfl

/-- The product into a zero accumulator, read at row g and column l: the sum over the 256 contracted positions. -/
theorem matmul_at (A : FVec Ideal S8192x256 .bf16) (B : FVec Ideal S256x128 .bf16) (g : Fin 8192) (l : Fin 128) :
    matmul DD none A B (constant (F := Ideal) S8192x128 .f32 0x00000000#32) (ix2 g l)
      = ∑ κ : Fin 256, A (ix2 g κ) * B (ix2 κ l) := by
  show FloatOps.matmul DD none A B (constant (F := Ideal) S8192x128 .f32 0x00000000#32) (ix2 g l) = _
  rw [Ideal.matmul_constant_zero_apply, ← Equiv.sum_comp (contrEquiv1 DD 256 rfl rfl).symm]
  refine Finset.sum_congr rfl fun c _ => ?_
  have c2 := contrEquiv1_symm_val DD 256 rfl rfl c
  have l2 : DD.lhsIdx (ix2 g l) ((contrEquiv1 DD 256 rfl rfl).symm c) = ix2 g c := by
    funext ax; apply Fin.ext
    match ax with
    | ⟨0, _⟩ => exact lhs_0 _ _
    | ⟨1, _⟩ => exact (lhs_1 _ _).trans c2
  have r2 : DD.rhsIdx (ix2 g l) ((contrEquiv1 DD 256 rfl rfl).symm c) = ix2 c l := by
    funext ax; apply Fin.ext
    match ax with
    | ⟨0, _⟩ => exact (rhs_0 _ _).trans c2
    | ⟨1, _⟩ => exact rhs_1 _ _
  rw [l2, r2]

/-- One label row's one-hot: row g has a one in the lane its label names and zeros in the other 63 lanes. -/
def hot (v : IVec S1x8192 32) : FVec Ideal S8192x64 .bf16 :=
  truncf .bf16 (sitofp .f32 (extui 32 (cmpi .eq
    (broadcastTo S8192x64 (shapeCast S8192x1 (shapeCast S8192x1 (shapeCast S8192 v shapeCasts_S1x8192_S8192)
      shapeCasts_S8192_S8192x1) shapeCasts_S8192x1_S8192x1) broadcasts_S8192x1_S8192x64)
    (iota .tc S8192x64 32 [1] iota_S8192x64_d1_w32)) natLt_1_32)) bitsLt_bf16_f32

/-- The label column spread over the 64 lanes reads, at row g of every lane, the label of position g. -/
theorem spread_apply (v : IVec S1x8192 32) (g : Fin 8192) (k : Fin 64) :
    broadcastTo S8192x64 (shapeCast S8192x1 (shapeCast S8192x1 (shapeCast S8192 v shapeCasts_S1x8192_S8192)
      shapeCasts_S8192_S8192x1) shapeCasts_S8192x1_S8192x1) broadcasts_S8192x1_S8192x64 (ix2 g k) = v (ix2 0 g) := by
  refine (broadcastTo_apply _ broadcasts_S8192x1_S8192x64 (ix2 g k) (ix2 g (0 : Fin 1)) ?_).trans ?_
  · intro a
    match a with
    | ⟨0, _⟩ => rfl
    | ⟨1, _⟩ => rfl
  rw [shapeCast_self]
  refine (shapeCast_apply _ shapeCasts_S8192_S8192x1 (ix2 g (0 : Fin 1)) (ix1 g) ?_).trans ?_
  · rw [Shape.rowMajor_val_one, Shape.rowMajor_val_two]
    show g.val = g.val * 1 + 0
    omega
  refine shapeCast_apply _ shapeCasts_S1x8192_S8192 (ix1 g) (ix2 (0 : Fin 1) g) ?_
  rw [Shape.rowMajor_val_one, Shape.rowMajor_val_two]
  show 0 * 8192 + g.val = g.val
  omega

/-- A one-bit word widened to 32 bits and read as a signed integer is the real 1 when the bit is set, else 0. -/
theorem bit_real (b : BitVec 1) : (((b.setWidth 32).toInt : ℝ) : EReal) = if b = 1#1 then 1 else 0 := by
  rcases BitVec.eq_zero_or_eq_one b with h | h <;> subst h <;> simp

theorem hot_apply (v : IVec S1x8192 32) (g : Fin 8192) (k : Fin 64) :
    hot v (ix2 g k) = if v (ix2 0 g) = BitVec.ofNat 32 k.val then 1 else 0 := by
  show ((((IntOp.cmpi .eq (broadcastTo S8192x64 (shapeCast S8192x1 (shapeCast S8192x1 (shapeCast S8192 v shapeCasts_S1x8192_S8192)
      shapeCasts_S8192_S8192x1) shapeCasts_S8192x1_S8192x1) broadcasts_S8192x1_S8192x64 (ix2 g k))
      (iota .tc S8192x64 32 [1] iota_S8192x64_d1_w32 (ix2 g k))).setWidth 32).toInt : ℝ) : EReal) = _
  rw [spread_apply, iota_single_apply, bit_real]
  show (if IntOp.cmpi .eq (v (ix2 0 g)) (BitVec.ofNat 32 k.val) = 1#1 then (1 : EReal) else 0) = _
  simp only [IntOp.cmpi_eq]

/-- Piece s of four 64-lane pieces. -/
def pick (x0 x1 x2 x3 : FVec Ideal S8192x64 .bf16) (s : Fin 4) : FVec Ideal S8192x64 .bf16 :=
  match s with | ⟨0, _⟩ => x0 | ⟨1, _⟩ => x1 | ⟨2, _⟩ => x2 | ⟨3, _⟩ => x3

/-- Four 64-lane pieces laid side by side read, at lane 64 s + k, piece s at lane k. -/
theorem cat_apply (x0 x1 x2 x3 : FVec Ideal S8192x64 .bf16) (g : Fin 8192) (κ : Fin 256) (s : Fin 4) (k : Fin 64)
    (hs : κ.val = s.val * 64 + k.val) :
    concatenate S8192x256 1 [⟨S8192x64, x0⟩, ⟨S8192x64, x1⟩, ⟨S8192x64, x2⟩, ⟨S8192x64, x3⟩]
      concatenates_S8192x64_S8192x64_S8192x64_S8192x64_S8192x256_d1 (ix2 g κ) = pick x0 x1 x2 x3 s (ix2 g k) := by
  have hi : ∀ b : Fin S8192x64.rank, b.cast (rfl : S8192x64.rank = S8192x256.rank) ≠ 1 →
      ((ix2 g k : S8192x64.Idx) b).val = ((ix2 g κ : S8192x256.Idx) (b.cast rfl)).val := by
    intro b hb
    match b, hb with
    | ⟨0, _⟩, _ => rfl
    | ⟨1, _⟩, hb => exact absurd rfl hb
  match s, hs with
  | ⟨0, _⟩, hs =>
    refine concatenate_apply_piece (t := S8192x256) 1 _ _ (ix2 g κ) 0 (by simp) S8192x64 x0 rfl rfl 0 rfl (ix2 g k) hi ?_
    show 0 + k.val = κ.val
    have : κ.val = 0 * 64 + k.val := hs
    omega
  | ⟨1, _⟩, hs =>
    refine concatenate_apply_piece (t := S8192x256) 1 _ _ (ix2 g κ) 1 (by simp) S8192x64 x1 rfl rfl 64 rfl (ix2 g k) hi ?_
    show 64 + k.val = κ.val
    have : κ.val = 1 * 64 + k.val := hs
    omega
  | ⟨2, _⟩, hs =>
    refine concatenate_apply_piece (t := S8192x256) 1 _ _ (ix2 g κ) 2 (by simp) S8192x64 x2 rfl rfl 128 rfl (ix2 g k) hi ?_
    show 128 + k.val = κ.val
    have : κ.val = 2 * 64 + k.val := hs
    omega
  | ⟨3, _⟩, hs =>
    refine concatenate_apply_piece (t := S8192x256) 1 _ _ (ix2 g κ) 3 (by simp) S8192x64 x3 rfl rfl 192 rfl (ix2 g k) hi ?_
    show 192 + k.val = κ.val
    have : κ.val = 3 * 64 + k.val := hs
    omega

/-- The label of slot s of group g: row s of the staged block at position g. -/
def rowLabel (v1 v10 v19 v28 : IVec S1x8192 32) (s : Fin 4) (g : Fin 8192) : BitVec 32 :=
  match s with | ⟨0, _⟩ => v1 (ix2 0 g) | ⟨1, _⟩ => v10 (ix2 0 g) | ⟨2, _⟩ => v19 (ix2 0 g) | ⟨3, _⟩ => v28 (ix2 0 g)

/-- Piece s of the four one-hots, at row g and lane k: one exactly when slot s of group g is labelled k. -/
theorem pick_hot (v1 v10 v19 v28 : IVec S1x8192 32) (s : Fin 4) (g : Fin 8192) (k : Fin 64) :
    pick (hot v1) (hot v10) (hot v19) (hot v28) s (ix2 g k)
      = if rowLabel v1 v10 v19 v28 s g = BitVec.ofNat 32 k.val then 1 else 0 := by
  match s with
  | ⟨0, _⟩ => exact hot_apply v1 g k
  | ⟨1, _⟩ => exact hot_apply v10 g k
  | ⟨2, _⟩ => exact hot_apply v19 g k
  | ⟨3, _⟩ => exact hot_apply v28 g k

/-- The stored block is the product of the four one-hots side by side with the staged table, into zero. -/
theorem pay2_eq (v1 v10 v19 v28 : IVec S1x8192 32) (v38 : FVec Ideal S256x128 .bf16) :
    Gen.k0_pay2 (F := Ideal) v1 v10 v19 v28 v38
      = matmul DD none
          (concatenate S8192x256 1 [⟨S8192x64, hot v1⟩, ⟨S8192x64, hot v10⟩, ⟨S8192x64, hot v19⟩, ⟨S8192x64, hot v28⟩]
            concatenates_S8192x64_S8192x64_S8192x64_S8192x64_S8192x256_d1)
          (shapeCast S256x128 v38 shapeCasts_S256x128_S256x128)
          (constant (F := Ideal) S8192x128 .f32 0x00000000#32) := rfl

/-- Row g of the product: the one-hot of the four labels of group g against column l of the table. -/
theorem pay2_apply (v1 v10 v19 v28 : IVec S1x8192 32) (v38 : FVec Ideal S256x128 .bf16) (g : Fin 8192) (l : Fin 128) :
    Gen.k0_pay2 (F := Ideal) v1 v10 v19 v28 v38 (ix2 g l)
      = ∑ κ : Fin 256, (if rowLabel v1 v10 v19 v28 ⟨κ.val / 64, by omega⟩ g = BitVec.ofNat 32 (κ.val % 64) then (1 : EReal) else 0)
          * v38 (ix2 κ l) := by
  rw [pay2_eq, matmul_at]
  refine Finset.sum_congr rfl fun κ _ => ?_
  rw [cat_apply _ _ _ _ g κ ⟨κ.val / 64, by omega⟩ ⟨κ.val % 64, Nat.mod_lt _ (by decide)⟩ (by show κ.val = κ.val / 64 * 64 + κ.val % 64; omega),
    shapeCast_self, pick_hot]

/-- Row g of the block depends on the labels of group g only. -/
theorem pay2_congr (v1 v10 v19 v28 v1' v10' v19' v28' : IVec S1x8192 32) (v38 : FVec Ideal S256x128 .bf16) (g : Fin 8192) (l : Fin 128)
    (h : ∀ s, rowLabel v1 v10 v19 v28 s g = rowLabel v1' v10' v19' v28' s g) :
    Gen.k0_pay2 (F := Ideal) v1 v10 v19 v28 v38 (ix2 g l) = Gen.k0_pay2 (F := Ideal) v1' v10' v19' v28' v38 (ix2 g l) := by
  rw [pay2_apply, pay2_apply]
  refine Finset.sum_congr rfl fun κ _ => ?_
  rw [h]

/-- Against a block-diagonal table the sum has one nonzero term: the table's row the label names. -/
theorem pay2_lookup (v1 v10 v19 v28 : IVec S1x8192 32) (v38 : FVec Ideal S256x128 .bf16) (T : FVec Ideal S64x32 .f32)
    (hT : ∀ (κ : Fin 256) (l : Fin 128), v38 (ix2 κ l) = if κ.val / 64 = l.val / 32 then T (ix2 (⟨κ.val % 64, Nat.mod_lt _ (by decide)⟩ : Fin 64) (⟨l.val % 32, Nat.mod_lt _ (by decide)⟩ : Fin 32)) else 0)
    (g : Fin 8192) (s : Fin 4) (j : Fin 32) (hlab : (rowLabel v1 v10 v19 v28 s g).toNat < 64) :
    Gen.k0_pay2 (F := Ideal) v1 v10 v19 v28 v38 (ix2 g (⟨s.val * 32 + j.val, by omega⟩ : Fin 128))
      = T (ix2 (⟨(rowLabel v1 v10 v19 v28 s g).toNat, hlab⟩ : Fin 64) j) := by
  rw [pay2_apply]
  have hκ₀ : s.val * 64 + (rowLabel v1 v10 v19 v28 s g).toNat < 256 := by omega
  rw [Finset.sum_eq_single (⟨s.val * 64 + (rowLabel v1 v10 v19 v28 s g).toNat, hκ₀⟩ : Fin 256)]
  · have hq : (s.val * 64 + (rowLabel v1 v10 v19 v28 s g).toNat) / 64 = s.val := by omega
    have hr : (s.val * 64 + (rowLabel v1 v10 v19 v28 s g).toNat) % 64 = (rowLabel v1 v10 v19 v28 s g).toNat := by omega
    have hs : (⟨(s.val * 64 + (rowLabel v1 v10 v19 v28 s g).toNat) / 64, by omega⟩ : Fin 4) = s := Fin.ext hq
    rw [hT]
    show (if rowLabel v1 v10 v19 v28 ⟨(s.val * 64 + (rowLabel v1 v10 v19 v28 s g).toNat) / 64, by omega⟩ g
        = BitVec.ofNat 32 ((s.val * 64 + (rowLabel v1 v10 v19 v28 s g).toNat) % 64) then (1 : EReal) else 0)
      * (if (s.val * 64 + (rowLabel v1 v10 v19 v28 s g).toNat) / 64 = (s.val * 32 + j.val) / 32 then
          T (ix2 (⟨(s.val * 64 + (rowLabel v1 v10 v19 v28 s g).toNat) % 64, Nat.mod_lt _ (by decide)⟩ : Fin 64)
            (⟨(s.val * 32 + j.val) % 32, Nat.mod_lt _ (by decide)⟩ : Fin 32)) else 0) = _
    rw [hs, if_pos (by rw [hr, BitVec.ofNat_toNat, BitVec.setWidth_eq]), if_pos (by omega), one_mul]
    congr 1
    funext a
    match a with
    | ⟨0, _⟩ => exact Fin.ext hr
    | ⟨1, _⟩ => exact Fin.ext (show (s.val * 32 + j.val) % 32 = j.val by omega)
  · intro κ _ hne
    rw [hT]
    show (if rowLabel v1 v10 v19 v28 ⟨κ.val / 64, by omega⟩ g = BitVec.ofNat 32 (κ.val % 64) then (1 : EReal) else 0)
      * (if κ.val / 64 = (s.val * 32 + j.val) / 32 then
          T (ix2 (⟨κ.val % 64, Nat.mod_lt _ (by decide)⟩ : Fin 64) (⟨(s.val * 32 + j.val) % 32, Nat.mod_lt _ (by decide)⟩ : Fin 32)) else 0) = 0
    by_cases hq : κ.val / 64 = (s.val * 32 + j.val) / 32
    · have hqs : κ.val / 64 = s.val := by omega
      have hs : (⟨κ.val / 64, by omega⟩ : Fin 4) = s := Fin.ext hqs
      have hk : κ.val % 64 ≠ (rowLabel v1 v10 v19 v28 s g).toNat := by
        intro hk
        apply hne
        apply Fin.ext
        show κ.val = s.val * 64 + (rowLabel v1 v10 v19 v28 s g).toNat
        omega
      rw [hs, if_neg, zero_mul]
      intro he
      apply hk
      rw [he, BitVec.toNat_ofNat]
      have := Nat.mod_lt κ.val (show 0 < 64 by decide)
      omega
    · rw [if_neg hq, mul_zero]
  · intro hn
    exact absurd (Finset.mem_univ _) hn

end Cert.KernelIdeal.Payload

end
-- ==== Proof.RunI.lean ====
/-
  The idealized kernel's run, with values. The proof data name what each staging buffer holds after
  the body at every grid point: the labels' block (its part inside the array, filled out with zero
  words where the last block overhangs), the table, and the block the body stores — the product of
  the labels' one-hot with the table, at the first point with row 0's first 32 lanes cleared. The
  labels' last block overhangs its array, so the words the body finds past the array's end are
  anything; row `g` of the stored block reads the labels of group `g` only, so the rows that are
  written back (those inside the result array) do not depend on them.
-/
import proofs.«405251_j5772436046293_3_alg».proof.Proof.BodyI
import proofs.«405251_j5772436046293_3_alg».proof.Proof.Payload
import proofs.«405251_j5772436046293_3_alg».proof.Proof.Gen.KernelIdeal.Frame
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Row-locality of the stored block -/

/-- The zero offsets, however spelt. -/
theorem hz2 : (![0, 0] : Fin 2 → Nat) = fun _ => 0 := funext fun a => by fin_cases a <;> rfl

/-- Row `s` of the labels' buffer, read at column `g`, is the buffer's entry (s, g). -/
theorem rL0_idx (g : Fin 8192) : rL0.idx (ix2 (0 : Fin 1) g) = (ix2 (0 : Fin 4) g : S4x8192.Idx) := by
  funext a
  match a with
  | ⟨0, _⟩ => exact Fin.ext (by show 0 + 1 * 0 = 0; rfl)
  | ⟨1, _⟩ => exact Fin.ext (by show 0 + 1 * g.val = g.val; omega)
theorem rL1_idx (g : Fin 8192) : rL1.idx (ix2 (0 : Fin 1) g) = (ix2 (1 : Fin 4) g : S4x8192.Idx) := by
  funext a
  match a with
  | ⟨0, _⟩ => exact Fin.ext (by show 1 + 1 * 0 = 1; rfl)
  | ⟨1, _⟩ => exact Fin.ext (by show 0 + 1 * g.val = g.val; omega)
theorem rL2_idx (g : Fin 8192) : rL2.idx (ix2 (0 : Fin 1) g) = (ix2 (2 : Fin 4) g : S4x8192.Idx) := by
  funext a
  match a with
  | ⟨0, _⟩ => exact Fin.ext (by show 2 + 1 * 0 = 2; rfl)
  | ⟨1, _⟩ => exact Fin.ext (by show 0 + 1 * g.val = g.val; omega)
theorem rL3_idx (g : Fin 8192) : rL3.idx (ix2 (0 : Fin 1) g) = (ix2 (3 : Fin 4) g : S4x8192.Idx) := by
  funext a
  match a with
  | ⟨0, _⟩ => exact Fin.ext (by show 3 + 1 * 0 = 3; rfl)
  | ⟨1, _⟩ => exact Fin.ext (by show 0 + 1 * g.val = g.val; omega)

/-- The four labels the product block's row `g` reads are the buffer's column `g`. -/
theorem rowLabel_ld (A : Vec Ideal S4x8192 .i32) (s : Fin 4) (g : Fin 8192) :
    Payload.rowLabel (View.ld A rL0) (View.ld A rL1) (View.ld A rL2) (View.ld A rL3) s g = A (ix2 s g) := by
  match s with
  | ⟨0, _⟩ => show A (rL0.idx (ix2 (0 : Fin 1) g)) = _; rw [rL0_idx]; rfl
  | ⟨1, _⟩ => show A (rL1.idx (ix2 (0 : Fin 1) g)) = _; rw [rL1_idx]; rfl
  | ⟨2, _⟩ => show A (rL2.idx (ix2 (0 : Fin 1) g)) = _; rw [rL2_idx]; rfl
  | ⟨3, _⟩ => show A (rL3.idx (ix2 (0 : Fin 1) g)) = _; rw [rL3_idx]; rfl

/-- Row `g` of the product block reads the four labels of group `g` only. -/
theorem prod_local (A A' : Vec Ideal S4x8192 .i32) (T : Vec Ideal S256x128 .bf16) (g : Fin 8192) (l : Fin 128)
    (h : ∀ s : Fin 4, A (ix2 s g) = A' (ix2 s g)) : prod (F := Ideal) A T (ix2 g l) = prod (F := Ideal) A' T (ix2 g l) := by
  unfold prod
  exact Payload.pay2_congr _ _ _ _ _ _ _ _ _ g l fun s => by rw [rowLabel_ld, rowLabel_ld]; exact h s

/-- Replacing a rectangle's part by the same values keeps an equation between the two bases at an index. -/
theorem overlay_congr_base {sh : Shape} {α : Type} (r : Rect sh) (X X' : sh.Idx → α) (G : r.shape.Idx → α) (j : sh.Idx)
    (h : X j = X' j) : r.overlay X G j = r.overlay X' G j := by
  unfold Rect.overlay
  generalize preimage? r.emb j = o
  cases o with
  | some i => rfl
  | none => exact h

/-- Row `y 0` of the block stored at a later point reads the four labels of group `y 0` only. -/
theorem outLater_local (A A' : Vec Ideal S4x8192 .i32) (T : Vec Ideal S256x128 .bf16) (y : S8192x128.Idx)
    (h : ∀ s : Fin 4, A (ix2 s (y 0)) = A' (ix2 s (y 0))) : outLater (F := Ideal) A T y = outLater (F := Ideal) A' T y := by
  obtain ⟨g, l, rfl⟩ : ∃ (g : Fin 8192) (l : Fin 128), y = ix2 g l := ⟨y 0, y 1, eq_ix2 y⟩
  unfold outLater
  rw [View.canon_unit_zero hz2 inb_S8192x128_S8192x128_0_0, View.canon_unit_zero hz2 inb_S8192x128_S8192x128_0_0]
  exact prod_local A A' T g l h

/-- The same at the first point: the cleared lanes are constants, the rest is the product block. -/
theorem outFirst_local (A A' : Vec Ideal S4x8192 .i32) (T : Vec Ideal S256x128 .bf16) (y : S8192x128.Idx)
    (h : ∀ s : Fin 4, A (ix2 s (y 0)) = A' (ix2 s (y 0))) : outFirst (F := Ideal) A T y = outFirst (F := Ideal) A' T y := by
  unfold outFirst
  rw [View.canon_cons, View.canon_cons]
  exact overlay_congr_base rZ _ _ _ y (outLater_local A A' T y h)

/-! ## The proof data -/

/-- The labels' block at point `t`, filled out to the whole 4 × 8192 buffer with zero words. -/
def labels8 (c : Dev nD) (t : Fin cfg0.N) : S4x8192.Idx → BitVec 32 :=
  win0_0.fill (grid0.coords t) (fun _ => 0#32) (iblk m c 0 t)

/-- What the body stores at point `t`, of those labels and the table's block. -/
def outAt (c : Dev nD) (t : Fin cfg0.N) : S8192x128.Idx → EReal :=
  if t.val = 0 then outFirst (F := Ideal) (labels8 m c t) (iblk m c 1 t) else outLater (F := Ideal) (labels8 m c t) (iblk m c 1 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => labels8 m c t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = labels8 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- The labels' buffer is fetched at every point: the block inside the array, anything past it. -/
theorem before0 (c : Dev nD) (t : Fin cfg0.N) (d) :
    (dats m 0 c).before 0 t d = win0_0.fill (grid0.coords t) d (iblk m c 0 t) := by
  unfold Dat.before; rw [if_pos (fetch0_0 t)]; rfl

/-- The table's buffer holds the table at every point, fetched there or not. -/
theorem before1 (c : Dev nD) (t : Fin cfg0.N) (d) : (dats m 0 c).before 1 t d = iblk m c 1 t :=
  before0_1_of m (dats m 0 c) (A_eq m c 1) (after1 m c) t d

/-! ## The rows written back do not see the words past the array's end -/

/-- The labels' window and the result's window are cut alike: the labels' block keeps its four rows and as
    many columns as the result's block keeps rows. -/
theorem xsize_rows : ∀ t : Fin cfg0.N, win0_0.xsize (grid0.coords t) 0 = 4 :=
  (by decide +kernel : ∀ t : Fin grid0.N, win0_0.xsize (grid0.coords t) 0 = 4)
theorem xsize_cols : ∀ t : Fin cfg0.N, win0_0.xsize (grid0.coords t) 1 = win0_2.xsize (grid0.coords t) 0 :=
  (by decide +kernel : ∀ t : Fin grid0.N, win0_0.xsize (grid0.coords t) 1 = win0_2.xsize (grid0.coords t) 0)

/-- On a column the fetch fills, the labels' buffer holds the block whatever it held before. -/
theorem fill_labels_eq (c : Dev nD) (t : Fin cfg0.N) (d d' : S4x8192.Idx → BitVec 32) (s : Fin 4) (g : Fin 8192)
    (hg : g.val < win0_2.xsize (grid0.coords t) 0) :
    win0_0.fill (grid0.coords t) d (iblk m c 0 t) (ix2 s g) = win0_0.fill (grid0.coords t) d' (iblk m c 0 t) (ix2 s g) := by
  have hm : win0_0.moved (grid0.coords t) (ix2 s g) = true := (win0_0.moved_iff (grid0.coords t) _).mpr fun a => by
    match a with
    | ⟨0, _⟩ => show s.val < win0_0.xsize (grid0.coords t) 0; rw [xsize_rows t]; exact s.isLt
    | ⟨1, _⟩ => show g.val < win0_0.xsize (grid0.coords t) 1; rw [xsize_cols t]; exact hg
  unfold Window.fill; rw [dif_pos hm, dif_pos hm]

theorem cut_outLater (c : Dev nD) (t : Fin cfg0.N) (d : S4x8192.Idx → BitVec 32) :
    win0_2.cut (grid0.coords t) (outLater (F := Ideal) (win0_0.fill (grid0.coords t) d (iblk m c 0 t)) (iblk m c 1 t))
      = win0_2.cut (grid0.coords t) (outLater (F := Ideal) (labels8 m c t) (iblk m c 1 t)) := by
  funext j
  exact outLater_local _ _ _ _ fun s => fill_labels_eq m c t _ _ s _ (j 0).isLt

theorem cut_outFirst (c : Dev nD) (t : Fin cfg0.N) (d : S4x8192.Idx → BitVec 32) :
    win0_2.cut (grid0.coords t) (outFirst (F := Ideal) (win0_0.fill (grid0.coords t) d (iblk m c 0 t)) (iblk m c 1 t))
      = win0_2.cut (grid0.coords t) (outFirst (F := Ideal) (labels8 m c t) (iblk m c 1 t)) := by
  funext j
  exact outFirst_local _ _ _ _ fun s => fill_labels_eq m c t _ _ s _ (j 0).isLt

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the two cut windows' buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t)))))

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  rw [before0 m c t d0, before1 m c t d1]
  have hl : win0_0.cut (grid0.coords t) (labels8 m c t) = iblk m c 0 t := win0_0.cut_fill _ _ _
  by_cases h0 : t.val = 0
  · iapply (sound_first c Set.univ (grid0.coords t) ((isFirst_iff t).mpr h0) _ _ _ _ _ _
      (win0_0.fill (grid0.coords t) d0 (iblk m c 0 t)) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]
    · iexists d0; rw [hl]; iexact H0
    isplitl [H1]; · iexact H1
    iexists (outFirst (F := Ideal) (win0_0.fill (grid0.coords t) d0 (iblk m c 0 t)) (iblk m c 1 t))
    rw [show outAt m c t = outFirst (F := Ideal) (labels8 m c t) (iblk m c 1 t) from if_pos h0,
      win0_2.fill_congr_cut (grid0.coords t) (cut_outFirst m c t d0)]
    iexact H2
  · iapply (sound_later c Set.univ (grid0.coords t) (fun h => h0 ((isFirst_iff t).mp h)) _ _ _ _ _ _
      (win0_0.fill (grid0.coords t) d0 (iblk m c 0 t)) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]
    · iexists d0; rw [hl]; iexact H0
    isplitl [H1]; · iexact H1
    iexists (outLater (F := Ideal) (win0_0.fill (grid0.coords t) d0 (iblk m c 0 t)) (iblk m c 1 t))
    rw [show outAt m c t = outLater (F := Ideal) (labels8 m c t) (iblk m c 1 t) from if_neg h0,
      win0_2.fill_congr_cut (grid0.coords t) (cut_outLater m c t d0)]
    iexact H2

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; the pipeline's arrays end at what the proof data compute,
    every other unscoped buffer at what the host lines after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.HostSide.lean ====
/-
  What the kernel program's host operations compute, read at an index: the labels' array and the block-diagonal
  table the region stages, and the row-major reshape of the region's output that follows it.
-/
import proofs.«405251_j5772436046293_3_alg».proof.Proof.Spec
import proofs.«405251_j5772436046293_3_alg».proof.Proof.Gen.KernelIdeal.Frame
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.Lib.StableHlo.Predicate
import Idealize.ShloMosaic.PureOps.Ideal
import Idealize.ShloMosaic.PureOps.Ideal.Laws

set_option maxRecDepth 16384

noncomputable section

namespace Cert.KernelIdeal.HostSide

open Idealize.ShloMosaic Idealize.ShloMosaic.TcCoe Idealize.ShloMosaic.ValueIdx
open Cert.KernelIdeal Cert.KernelIdeal.Gen

variable (m : (ℓ : Loc nD τ sig) → Buf (Elt Ideal) ℓ)

/-! ## The labels' array -/

/-- A signed word in [0, 64) is its own clamp to [0, 63]. -/
theorem clamp_id (x : BitVec 32) (h0 : 0 ≤ x.toInt) (h1 : x.toInt < 64) :
    IntOp.minsi 63#32 (IntOp.maxsi 0#32 x) = x := by
  have h63 : (63#32 : BitVec 32).toInt = 63 := by decide
  have h00 : (0#32 : BitVec 32).toInt = 0 := by decide
  have e1 : IntOp.maxsi 0#32 x = x := by
    unfold IntOp.maxsi
    rw [if_neg]
    rw [BitVec.slt_iff_toInt_lt, h00]; omega
  rw [e1]
  unfold IntOp.minsi
  rw [if_neg]
  rw [BitVec.slt_iff_toInt_lt, h63]; omega

/-- The labels' array the region stages, as the host operations' composed term: the launched column flattened,
    clamped to [0, 63], cut into rows of four and transposed. -/
theorem V_labels_term (c : Dev nD) :
    (V m c main_call0_v3 : S4x250000.Idx → BitVec 32)
      = transpose S4x250000 [1, 0]
          (shapeCast S250000x4
            (minsi (broadcastInDim S1000000 ![] bcast_S_S1000000 (constantI S_ 32 63#32))
              (maxsi (broadcastInDim S1000000 ![] bcast_S_S1000000 (constantI S_ 32 0#32))
                (shapeCast S1000000 (m ((c : Thread nD τ).loc main_arg0) : S1000000x1.Idx → BitVec 32) shapeCasts_S1000000x1_S1000000)))
            shapeCasts_S1000000_S250000x4)
          transposes_S250000x4_S4x250000_1_0 := by
  show StableHlo.after hostOps0 (fun b => m (c, b)) (Proc.devRef .tc main_call0_v3) = _
  after_results
  rfl

/-- Entry (s, g) of the labels' array the region stages is the label of cell 4g+s: in range, the clamp is the identity. -/
theorem V_labels (c : Dev nD) (hb : Cert.Embed.InRange (m ((c : Thread nD τ).loc main_arg0))) (s : Fin 4) (g : Fin 250000) :
    (V m c main_call0_v3 : S4x250000.Idx → BitVec 32) (ix2 s g)
      = m ((c : Thread nD τ).loc main_arg0) (ix2 (⟨4 * g.val + s.val, by omega⟩ : Fin 1000000) (0 : Fin 1)) := by
  rw [V_labels_term]
  refine (transpose_ix2_apply _ transposes_S250000x4_S4x250000_1_0 s g).trans ?_
  refine (shapeCast_apply _ shapeCasts_S1000000_S250000x4 (ix2 g s) (ix1 (⟨4 * g.val + s.val, by omega⟩ : Fin 1000000)) ?_).trans ?_
  · rw [Shape.rowMajor_val_one, Shape.rowMajor_val_two]
    show 4 * g.val + s.val = g.val * 4 + s.val
    omega
  show IntOp.minsi (broadcastInDim S1000000 ![] bcast_S_S1000000 (constantI S_ 32 63#32) (ix1 (⟨4 * g.val + s.val, by omega⟩ : Fin 1000000)))
      (IntOp.maxsi (broadcastInDim S1000000 ![] bcast_S_S1000000 (constantI S_ 32 0#32) (ix1 (⟨4 * g.val + s.val, by omega⟩ : Fin 1000000)))
        (shapeCast S1000000 (m ((c : Thread nD τ).loc main_arg0) : S1000000x1.Idx → BitVec 32) shapeCasts_S1000000x1_S1000000 (ix1 (⟨4 * g.val + s.val, by omega⟩ : Fin 1000000)))) = _
  rw [broadcastInDim_scalar_apply, broadcastInDim_scalar_apply, constantI_apply, constantI_apply]
  rw [shapeCast_apply _ shapeCasts_S1000000x1_S1000000 (ix1 (⟨4 * g.val + s.val, by omega⟩ : Fin 1000000))
        (ix2 (⟨4 * g.val + s.val, by omega⟩ : Fin 1000000) (0 : Fin 1))
        (by rw [Shape.rowMajor_val_one, Shape.rowMajor_val_two]; show (4 * g.val + s.val) * 1 + 0 = 4 * g.val + s.val; omega)]
  exact clamp_id _ (hb _).1 (hb _).2

/-! ## The reshape after the region -/

/-- After the region the result is the row-major reshape of the region's output array. -/
theorem tail_term (dats : (p : Fin 1) → (c : Dev nD) → Pipeline.Dat τ (Elt Ideal) Unit ℕ (UR sig nD τ) ℕ (cfgs p) c) (c : Dev nD)
    (A2 : S250000x128.Idx → EReal) (hA2 : (dats 0 c).arrAt 2 cfg0.N = A2) :
    (Pipeline.afterTail₀ cfgs dats 0 (V0 m) [hostOps1] c main_v0 : S1000000x32.Idx → EReal)
      = shapeCast S1000000x32 A2 shapeCasts_S250000x128_S1000000x32 := by
  have hw := (Pipeline.withArrays_arr spec0 launch0.win.arr_inj c (V0 m c) (fun w => (dats 0 c).arrAt w (cfgs 0).N) 2).trans hA2
  unfold Pipeline.afterTail₀
  show StableHlo.after hostOps1 _ (Proc.devRef .tc main_v0) = _
  after_results
  funext i
  exact congrFun (congrArg (fun X => shapeCast S1000000x32 X shapeCasts_S250000x128_S1000000x32) hw) i

/-- After the region, row i of the result is lanes 32 (i mod 4) .. 32 (i mod 4) + 31 of row i / 4 of the region's output array. -/
theorem tail_result (dats : (p : Fin 1) → (c : Dev nD) → Pipeline.Dat τ (Elt Ideal) Unit ℕ (UR sig nD τ) ℕ (cfgs p) c) (c : Dev nD)
    (A2 : S250000x128.Idx → EReal) (hA2 : (dats 0 c).arrAt 2 cfg0.N = A2) (i : Fin 1000000) (j : Fin 32) :
    (Pipeline.afterTail₀ cfgs dats 0 (V0 m) [hostOps1] c main_v0 : S1000000x32.Idx → EReal) (ix2 i j)
      = A2 (ix2 (⟨i.val / 4, by omega⟩ : Fin 250000) (⟨(i.val % 4) * 32 + j.val, by omega⟩ : Fin 128)) := by
  rw [tail_term m dats c A2 hA2]
  refine shapeCast_apply _ shapeCasts_S250000x128_S1000000x32 (ix2 i j)
    (ix2 (⟨i.val / 4, by omega⟩ : Fin 250000) (⟨(i.val % 4) * 32 + j.val, by omega⟩ : Fin 128)) ?_
  rw [Shape.rowMajor_val_two, Shape.rowMajor_val_two]
  show i.val / 4 * 128 + (i.val % 4 * 32 + j.val) = i.val * 32 + j.val
  omega

/-! ## A scatter that overwrites, read at an index -/

section Scatter

variable {α : Type} {s si u : Shape} {w : Nat}

/-- One step of an overwriting scatter: update number n lands at its result index, or is dropped. -/
def scatStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (scatStep d idx upd) x := by
  unfold Host.scatter
  rfl

theorem scatStep_some (d : ScatterDims s si u) (idx : IVec si w) (upd : u.Idx → α) (r : s.Idx → α) (n : Fin u.numel) (i : s.Idx)
    (h : d.resultIdx? (u.rowMajor.symm n) idx = some i) (i' : s.Idx) :
    scatStep d idx upd r n i' = if i' = i then upd (u.rowMajor.symm n) else r i' := by
  unfold scatStep; rw [h]

theorem scatStep_ne (d : ScatterDims s si u) (idx : IVec si w) (upd : u.Idx → α) (r : s.Idx → α) (n : Fin u.numel) (i' : s.Idx)
    (h : d.resultIdx? (u.rowMajor.symm n) idx ≠ some i') :
    scatStep d idx upd r n i' = r i' := by
  unfold scatStep
  cases hh : d.resultIdx? (u.rowMajor.symm n) idx with
  | none => rfl
  | some i =>
    show (if i' = i then _ else r i') = r i'
    rw [if_neg]
    intro e; exact h (by rw [hh, e])

theorem foldl_scatStep_miss (d : ScatterDims s si u) (idx : IVec si w) (upd : u.Idx → α) (i' : s.Idx) (l : List (Fin u.numel))
    (hmiss : ∀ n ∈ l, d.resultIdx? (u.rowMajor.symm n) idx ≠ some i') (x : s.Idx → α) :
    l.foldl (scatStep d idx upd) x i' = x i' := by
  induction l generalizing x with
  | nil => rfl
  | cons a t ih =>
    rw [List.foldl_cons, ih (fun n hn => hmiss n (List.mem_cons_of_mem _ hn))]
    exact scatStep_ne d idx upd x a i' (hmiss a (List.mem_cons_self ..))

theorem foldl_scatStep_hit (d : ScatterDims s si u) (idx : IVec si w) (upd : u.Idx → α) (i' : s.Idx) (j₀ : u.Idx)
    (h₀ : d.resultIdx? j₀ idx = some i') (huniq : ∀ j, d.resultIdx? j idx = some i' → j = j₀)
    (l : List (Fin u.numel)) (hmem : u.rowMajor j₀ ∈ l) (hnd : l.Nodup) (x : s.Idx → α) :
    l.foldl (scatStep d idx upd) x i' = upd j₀ := by
  induction l generalizing x with
  | nil => exact absurd hmem (List.not_mem_nil)
  | cons a t ih =>
    rw [List.foldl_cons]
    rw [List.nodup_cons] at hnd
    by_cases ha : a = u.rowMajor j₀
    · have hmiss : ∀ n ∈ t, d.resultIdx? (u.rowMajor.symm n) idx ≠ some i' := fun n hn e => by
        have e1 : u.rowMajor.symm n = j₀ := huniq _ e
        have e2 : n = u.rowMajor j₀ := by rw [← e1, Equiv.apply_symm_apply]
        exact hnd.1 (by rw [ha, ← e2]; exact hn)
      rw [foldl_scatStep_miss d idx upd i' t hmiss]
      have hs : u.rowMajor.symm a = j₀ := by rw [ha, Equiv.symm_apply_apply]
      rw [scatStep_some d idx upd x a i' (by rw [hs]; exact h₀), if_pos rfl, hs]
    · have hm : u.rowMajor j₀ ∈ t := by
        rcases List.mem_cons.1 hmem with e | e
        · exact absurd e.symm ha
        · exact e
      exact ih hm hnd.2 _

/-- An overwriting scatter read at an index no update lands at: the operand. -/
theorem scatter_set_miss (d : ScatterDims s si u) (x : s.Idx → α) (idx : IVec si w) (upd : u.Idx → α) (i' : s.Idx)
    (hmiss : ∀ j, d.resultIdx? j idx ≠ some i') :
    Host.scatter d (fun _ b => b) x idx upd i' = x i' := by
  rw [scatter_eq_foldl]
  exact foldl_scatStep_miss d idx upd i' _ (fun n _ => hmiss _) x

/-- An overwriting scatter read at an index exactly one update lands at: that update. -/
theorem scatter_set_hit (d : ScatterDims s si u) (x : s.Idx → α) (idx : IVec si w) (upd : u.Idx → α) (i' : s.Idx) (j₀ : u.Idx)
    (h₀ : d.resultIdx? j₀ idx = some i') (huniq : ∀ j, d.resultIdx? j idx = some i' → j = j₀) :
    Host.scatter d (fun _ b => b) x idx upd i' = upd j₀ := by
  rw [scatter_eq_foldl]
  exact foldl_scatStep_hit d idx upd i' j₀ h₀ huniq _ (List.mem_finRange _) (List.nodup_finRange _) x

end Scatter

/-! ## The table's scatter: a whole 64 by 32 window written at a start inside the 256 by 128 array -/

theorem d0_start0 (idx : IVec S2 32) (j : S64x32.Idx) :
    scatter_S256x128_S2_S64x32_01_n_01_0.start j idx (0 : Fin 2) = (idx (ix1 (0 : Fin 2))).toInt := by
  have h : (0 : Fin 2) ∈ scatter_S256x128_S2_S64x32_01_n_01_0.scatterDimsToOperandDims := by decide
  unfold ScatterDims.start
  rw [dif_pos h]
  refine congrArg (fun k => (idx k).toInt) ?_
  funext b
  match b with
  | ⟨0, _⟩ => rfl
theorem d0_start1 (idx : IVec S2 32) (j : S64x32.Idx) :
    scatter_S256x128_S2_S64x32_01_n_01_0.start j idx (1 : Fin 2) = (idx (ix1 (1 : Fin 2))).toInt := by
  have h : (1 : Fin 2) ∈ scatter_S256x128_S2_S64x32_01_n_01_0.scatterDimsToOperandDims := by decide
  unfold ScatterDims.start
  rw [dif_pos h]
  refine congrArg (fun k => (idx k).toInt) ?_
  funext b
  match b with
  | ⟨0, _⟩ => rfl
theorem d0_window0 (j : S64x32.Idx) : scatter_S256x128_S2_S64x32_01_n_01_0.window j (0 : Fin 2) = (j 0).val := by
  rfl
theorem d0_window1 (j : S64x32.Idx) : scatter_S256x128_S2_S64x32_01_n_01_0.window j (1 : Fin 2) = (j 1).val := by
  rfl

/-- Where update (p, q) of the window lands when the start words read r0 and c0 and the window stays inside. -/
theorem d0_resultIdx (idx : IVec S2 32) (r0 c0 : ℕ) (hr : (idx (ix1 (0 : Fin 2))).toInt = (r0 : ℤ)) (hc : (idx (ix1 (1 : Fin 2))).toInt = (c0 : ℤ))
    (hr' : r0 + 64 ≤ 256) (hc' : c0 + 32 ≤ 128) (p : Fin 64) (q : Fin 32) :
    scatter_S256x128_S2_S64x32_01_n_01_0.resultIdx? (ix2 p q) idx
      = some (ix2 (⟨r0 + p.val, by omega⟩ : Fin 256) (⟨c0 + q.val, by omega⟩ : Fin 128)) := by
  have h : ∀ a : Fin 2, 0 ≤ scatter_S256x128_S2_S64x32_01_n_01_0.start (ix2 p q) idx a + scatter_S256x128_S2_S64x32_01_n_01_0.window (ix2 p q) a
      ∧ scatter_S256x128_S2_S64x32_01_n_01_0.start (ix2 p q) idx a + scatter_S256x128_S2_S64x32_01_n_01_0.window (ix2 p q) a < S256x128.size a := by
    intro a
    match a with
    | ⟨0, _⟩ =>
      rw [show (⟨0, by decide⟩ : Fin 2) = (0 : Fin 2) from rfl, d0_start0, d0_window0, hr]
      show (0 : ℤ) ≤ (r0 : ℤ) + (p.val : ℤ) ∧ (r0 : ℤ) + (p.val : ℤ) < (256 : ℕ)
      omega
    | ⟨1, _⟩ =>
      rw [show (⟨1, by decide⟩ : Fin 2) = (1 : Fin 2) from rfl, d0_start1, d0_window1, hc]
      show (0 : ℤ) ≤ (c0 : ℤ) + (q.val : ℤ) ∧ (c0 : ℤ) + (q.val : ℤ) < (128 : ℕ)
      omega
  unfold ScatterDims.resultIdx?
  rw [dif_pos h]
  refine congrArg some (funext fun a => Fin.ext ?_)
  match a with
  | ⟨0, _⟩ =>
    show (scatter_S256x128_S2_S64x32_01_n_01_0.start (ix2 p q) idx (0 : Fin 2) + scatter_S256x128_S2_S64x32_01_n_01_0.window (ix2 p q) (0 : Fin 2)).toNat = r0 + p.val
    rw [d0_start0, d0_window0, hr]
    show ((r0 : ℤ) + (p.val : ℤ)).toNat = r0 + p.val
    omega
  | ⟨1, _⟩ =>
    show (scatter_S256x128_S2_S64x32_01_n_01_0.start (ix2 p q) idx (1 : Fin 2) + scatter_S256x128_S2_S64x32_01_n_01_0.window (ix2 p q) (1 : Fin 2)).toNat = c0 + q.val
    rw [d0_start1, d0_window1, hc]
    show ((c0 : ℤ) + (q.val : ℤ)).toNat = c0 + q.val
    omega

section Window

variable {α : Type}

/-- The window scatter read inside the window: the update at the offset from the start. -/
theorem scatter_window_hit (x : S256x128.Idx → α) (idx : IVec S2 32) (upd : S64x32.Idx → α) (r0 c0 : ℕ)
    (hr : (idx (ix1 (0 : Fin 2))).toInt = (r0 : ℤ)) (hc : (idx (ix1 (1 : Fin 2))).toInt = (c0 : ℤ))
    (hr' : r0 + 64 ≤ 256) (hc' : c0 + 32 ≤ 128) (κ : Fin 256) (l : Fin 128)
    (h1 : r0 ≤ κ.val) (h2 : κ.val < r0 + 64) (h3 : c0 ≤ l.val) (h4 : l.val < c0 + 32) :
    Host.scatter scatter_S256x128_S2_S64x32_01_n_01_0 (fun _ b => b) x idx upd (ix2 κ l)
      = upd (ix2 (⟨κ.val - r0, by omega⟩ : Fin 64) (⟨l.val - c0, by omega⟩ : Fin 32)) := by
  refine scatter_set_hit scatter_S256x128_S2_S64x32_01_n_01_0 x idx upd (ix2 κ l)
    (ix2 (⟨κ.val - r0, by omega⟩ : Fin 64) (⟨l.val - c0, by omega⟩ : Fin 32)) ?_ ?_
  · rw [d0_resultIdx idx r0 c0 hr hc hr' hc']
    have e0 : (⟨r0 + (κ.val - r0), by omega⟩ : Fin 256) = κ := Fin.ext (by show r0 + (κ.val - r0) = κ.val; omega)
    have e1 : (⟨c0 + (l.val - c0), by omega⟩ : Fin 128) = l := Fin.ext (by show c0 + (l.val - c0) = l.val; omega)
    show some (ix2 (⟨r0 + (κ.val - r0), by omega⟩ : Fin 256) (⟨c0 + (l.val - c0), by omega⟩ : Fin 128)) = some (ix2 κ l)
    rw [e0, e1]
  · intro j hj
    obtain ⟨p, q, rfl⟩ : ∃ (p : Fin 64) (q : Fin 32), j = ix2 p q := ⟨j 0, j 1, eq_ix2 j⟩
    rw [d0_resultIdx idx r0 c0 hr hc hr' hc'] at hj
    have e := Option.some.inj hj
    have e0 : r0 + p.val = κ.val := congrArg (fun f : S256x128.Idx => (f 0).val) e
    have e1 : c0 + q.val = l.val := congrArg (fun f : S256x128.Idx => (f 1).val) e
    have ep : p = (⟨κ.val - r0, by omega⟩ : Fin 64) := Fin.ext (by show p.val = κ.val - r0; omega)
    have eq' : q = (⟨l.val - c0, by omega⟩ : Fin 32) := Fin.ext (by show q.val = l.val - c0; omega)
    rw [ep, eq']

/-- The window scatter read outside the window: the operand. -/
theorem scatter_window_miss (x : S256x128.Idx → α) (idx : IVec S2 32) (upd : S64x32.Idx → α) (r0 c0 : ℕ)
    (hr : (idx (ix1 (0 : Fin 2))).toInt = (r0 : ℤ)) (hc : (idx (ix1 (1 : Fin 2))).toInt = (c0 : ℤ))
    (hr' : r0 + 64 ≤ 256) (hc' : c0 + 32 ≤ 128) (κ : Fin 256) (l : Fin 128)
    (hout : ¬(r0 ≤ κ.val ∧ κ.val < r0 + 64 ∧ c0 ≤ l.val ∧ l.val < c0 + 32)) :
    Host.scatter scatter_S256x128_S2_S64x32_01_n_01_0 (fun _ b => b) x idx upd (ix2 κ l) = x (ix2 κ l) := by
  refine scatter_set_miss scatter_S256x128_S2_S64x32_01_n_01_0 x idx upd (ix2 κ l) (fun j hj => hout ?_)
  obtain ⟨p, q, rfl⟩ : ∃ (p : Fin 64) (q : Fin 32), j = ix2 p q := ⟨j 0, j 1, eq_ix2 j⟩
  rw [d0_resultIdx idx r0 c0 hr hc hr' hc'] at hj
  have e := Option.some.inj hj
  have e0 : r0 + p.val = κ.val := congrArg (fun f : S256x128.Idx => (f 0).val) e
  have e1 : c0 + q.val = l.val := congrArg (fun f : S256x128.Idx => (f 1).val) e
  have := p.isLt
  have := q.isLt
  omega

end Window

/-! ## The start vectors -/

/-- Two one-element vectors laid end to end. -/
def pairVec (A B : IVec S1 32) : IVec S2 32 :=
  concatenate S2 0 [⟨S1, A⟩, ⟨S1, B⟩] concatenates_S1_S1_S2_d0

theorem pairVec_fold (A B : IVec S1 32) :
    concatenate S2 0 [⟨S1, A⟩, ⟨S1, B⟩] concatenates_S1_S1_S2_d0 = pairVec A B := rfl

/-- A scatter's start vector: two one-element constants laid end to end. -/
abbrev startVec (r0 c0 : BitVec 32) : IVec S2 32 :=
  pairVec (broadcastInDim S1 ![] bcast_S_S1 (constantI S_ 32 r0)) (broadcastInDim S1 ![] bcast_S_S1 (constantI S_ 32 c0))

theorem startVec_0 (r0 c0 : BitVec 32) : startVec r0 c0 (ix1 (0 : Fin 2)) = r0 := by
  show pairVec _ _ _ = _
  unfold pairVec
  refine (concatenate_pair_apply_left (0 : Fin S2.rank) _ _ concatenates_S1_S1_S2_d0 (ix1 (0 : Fin 2)) rfl (ix1 (0 : Fin 1)) ?_).trans ?_
  · intro b
    match b with
    | ⟨0, _⟩ => rfl
  · rw [broadcastInDim_scalar_apply, constantI_apply]

theorem startVec_1 (r0 c0 : BitVec 32) : startVec r0 c0 (ix1 (1 : Fin 2)) = c0 := by
  show pairVec _ _ _ = _
  unfold pairVec
  refine (concatenate_pair_apply_right (0 : Fin S2.rank) _ _ concatenates_S1_S1_S2_d0 (ix1 (1 : Fin 2)) rfl rfl (ix1 (0 : Fin 1)) ?_ ?_).trans ?_
  · intro b hb
    match b with
    | ⟨0, _⟩ => exact absurd rfl hb
  · rfl
  · rw [broadcastInDim_scalar_apply, constantI_apply]

/-! ## Contents moved to a buffer's own type and back -/

section Casts

/-- Contents moved to a buffer's own type and back are the contents. -/
theorem ofBuf_toBuf' {T : BufTy} (x : StableHlo.TRef sig T) (v : T.Contents (Elt Ideal)) : x.ofBuf (x.toBuf v) = v := by
  obtain ⟨r, h, h2, h3⟩ := x
  subst h
  rfl

/-- The staged table's buffer has the table's type. -/
theorem toBuf_v21 (X : FVec Ideal S256x128 .bf16) :
    (StableHlo.TRef.of (T := ⟨S256x128, .bf16⟩) main_call0_v21).toBuf (Val := Elt Ideal) X = X := rfl

/-- The launched table's buffer has the table's type. -/
theorem ofBuf_arg1 (X : FVec Ideal S64x32 .f32) :
    (StableHlo.TRef.of (T := ⟨S64x32, .f32⟩) main_arg1).ofBuf (Val := Elt Ideal) X = X := rfl

end Casts

/-! ## The table -/

/-- The table the region stages, as the host operations' composed term: a zero 256 by 128 array with the 64 by 32 table
    written at (0,0), (64,32), (128,64) and (192,96), then the change of float format. -/
def tableTerm (W : S64x32.Idx → EReal) : S256x128.Idx → EReal :=
  truncf (F := Ideal) .bf16
    (Host.scatter scatter_S256x128_S2_S64x32_01_n_01_0 (fun _ b => b)
      (Host.scatter scatter_S256x128_S2_S64x32_01_n_01_0 (fun _ b => b)
        (Host.scatter scatter_S256x128_S2_S64x32_01_n_01_0 (fun _ b => b)
          (Host.scatter scatter_S256x128_S2_S64x32_01_n_01_0 (fun _ b => b)
            (broadcastInDim S256x128 ![] bcast_S_S256x128 (constant (F := Ideal) S_ .f32 0x00000000#32))
            (startVec 0#32 0#32) W)
          (startVec 64#32 32#32) W)
        (startVec 128#32 64#32) W)
      (startVec 192#32 96#32) W : FVec Ideal S256x128 .f32)
    bitsLt_bf16_f32

set_option maxHeartbeats 1000000 in
theorem V_table_term (c : Dev nD) :
    (V m c main_call0_v21 : S256x128.Idx → EReal) = tableTerm (m ((c : Thread nD τ).loc main_arg1)) := by
  show StableHlo.after hostOps0 (fun b => m (c, b)) (Proc.devRef .tc main_call0_v21) = _
  after_results_simp
  simp only [pairVec_fold]
  after_results_simp
  simp only [ofBuf_toBuf', ofBuf_arg1]
  rw [toBuf_v21]
  unfold tableTerm
  rfl

/-- Block k of the diagonal: the scatter whose start is (64 k, 32 k), read inside block (k, k), is the table. -/
theorem block_hit (W : S64x32.Idx → EReal) (x : S256x128.Idx → EReal) (k r0 c0 : ℕ) (hr0 : r0 = 64 * k) (hc0 : c0 = 32 * k) (hk : k < 4)
    (idx : IVec S2 32) (hr : (idx (ix1 (0 : Fin 2))).toInt = (r0 : ℤ)) (hc : (idx (ix1 (1 : Fin 2))).toInt = (c0 : ℤ))
    (κ : Fin 256) (l : Fin 128) (hκ : κ.val / 64 = k) (hl : l.val / 32 = k) :
    Host.scatter scatter_S256x128_S2_S64x32_01_n_01_0 (fun _ b => b) x idx W (ix2 κ l)
      = W (ix2 (⟨κ.val % 64, Nat.mod_lt _ (by decide)⟩ : Fin 64) (⟨l.val % 32, Nat.mod_lt _ (by decide)⟩ : Fin 32)) := by
  have h1 := κ.isLt
  have h2 := l.isLt
  rw [scatter_window_hit x idx W r0 c0 hr hc (by omega) (by omega) κ l (by omega) (by omega) (by omega) (by omega)]
  have e0 : (⟨κ.val - r0, by omega⟩ : Fin 64) = ⟨κ.val % 64, Nat.mod_lt _ (by decide)⟩ := Fin.ext (by show κ.val - r0 = κ.val % 64; omega)
  have e1 : (⟨l.val - c0, by omega⟩ : Fin 32) = ⟨l.val % 32, Nat.mod_lt _ (by decide)⟩ := Fin.ext (by show l.val - c0 = l.val % 32; omega)
  rw [e0, e1]

/-- Outside block (k, k) that scatter leaves the array as it was. -/
theorem block_miss (W : S64x32.Idx → EReal) (x : S256x128.Idx → EReal) (k r0 c0 : ℕ) (hr0 : r0 = 64 * k) (hc0 : c0 = 32 * k) (hk : k < 4)
    (idx : IVec S2 32) (hr : (idx (ix1 (0 : Fin 2))).toInt = (r0 : ℤ)) (hc : (idx (ix1 (1 : Fin 2))).toInt = (c0 : ℤ))
    (κ : Fin 256) (l : Fin 128) (h : ¬(κ.val / 64 = k ∧ l.val / 32 = k)) :
    Host.scatter scatter_S256x128_S2_S64x32_01_n_01_0 (fun _ b => b) x idx W (ix2 κ l) = x (ix2 κ l) := by
  have h1 := κ.isLt
  have h2 := l.isLt
  exact scatter_window_miss x idx W r0 c0 hr hc (by omega) (by omega) κ l (by omega)

/-- The composed table is block diagonal: four copies of the 64 by 32 table, zero elsewhere. -/
theorem tableTerm_apply (W : S64x32.Idx → EReal) (κ : Fin 256) (l : Fin 128) :
    tableTerm W (ix2 κ l)
      = if κ.val / 64 = l.val / 32 then
          W (ix2 (⟨κ.val % 64, Nat.mod_lt _ (by decide)⟩ : Fin 64) (⟨l.val % 32, Nat.mod_lt _ (by decide)⟩ : Fin 32))
        else 0 := by
  have h1 := κ.isLt
  have h2 := l.isLt
  have a0 : ∀ (r0 c0 : BitVec 32) (n : ℕ), r0.toInt = (n : ℤ) → (startVec r0 c0 (ix1 (0 : Fin 2))).toInt = (n : ℤ) :=
    fun r0 c0 n h => by rw [startVec_0]; exact h
  have a1 : ∀ (r0 c0 : BitVec 32) (n : ℕ), c0.toInt = (n : ℤ) → (startVec r0 c0 (ix1 (1 : Fin 2))).toInt = (n : ℤ) :=
    fun r0 c0 n h => by rw [startVec_1]; exact h
  unfold tableTerm
  rw [truncf_apply]
  by_cases h3 : κ.val / 64 = 3 ∧ l.val / 32 = 3
  · rw [block_hit W _ 3 192 96 (by decide) (by decide) (by decide) _ (a0 _ _ 192 (by decide)) (a1 _ _ 96 (by decide)) κ l h3.1 h3.2,
      if_pos (by omega)]
  rw [block_miss W _ 3 192 96 (by decide) (by decide) (by decide) _ (a0 _ _ 192 (by decide)) (a1 _ _ 96 (by decide)) κ l h3]
  by_cases h2' : κ.val / 64 = 2 ∧ l.val / 32 = 2
  · rw [block_hit W _ 2 128 64 (by decide) (by decide) (by decide) _ (a0 _ _ 128 (by decide)) (a1 _ _ 64 (by decide)) κ l h2'.1 h2'.2,
      if_pos (by omega)]
  rw [block_miss W _ 2 128 64 (by decide) (by decide) (by decide) _ (a0 _ _ 128 (by decide)) (a1 _ _ 64 (by decide)) κ l h2']
  by_cases h1' : κ.val / 64 = 1 ∧ l.val / 32 = 1
  · rw [block_hit W _ 1 64 32 (by decide) (by decide) (by decide) _ (a0 _ _ 64 (by decide)) (a1 _ _ 32 (by decide)) κ l h1'.1 h1'.2,
      if_pos (by omega)]
  rw [block_miss W _ 1 64 32 (by decide) (by decide) (by decide) _ (a0 _ _ 64 (by decide)) (a1 _ _ 32 (by decide)) κ l h1']
  by_cases h0' : κ.val / 64 = 0 ∧ l.val / 32 = 0
  · rw [block_hit W _ 0 0 0 (by decide) (by decide) (by decide) _ (a0 _ _ 0 (by decide)) (a1 _ _ 0 (by decide)) κ l h0'.1 h0'.2,
      if_pos (by omega)]
  rw [block_miss W _ 0 0 0 (by decide) (by decide) (by decide) _ (a0 _ _ 0 (by decide)) (a1 _ _ 0 (by decide)) κ l h0']
  rw [broadcastInDim_scalar_apply, constant_apply, Ideal.ofBits_zero_f32, if_neg (by omega)]

/-- The table the region stages is block diagonal: four copies of the launched 64 by 32 table on the diagonal, zero elsewhere
    (the change of float format is the identity on extended reals, and the zero word is the real zero). -/
theorem V_table (c : Dev nD) (κ : Fin 256) (l : Fin 128) :
    (V m c main_call0_v21 : S256x128.Idx → EReal) (ix2 κ l)
      = @ite EReal (κ.val / 64 = l.val / 32) _
          (m ((c : Thread nD τ).loc main_arg1) (ix2 (⟨κ.val % 64, Nat.mod_lt _ (by decide)⟩ : Fin 64) (⟨l.val % 32, Nat.mod_lt _ (by decide)⟩ : Fin 32)))
          0 := by
  rw [V_table_term]
  exact tableTerm_apply _ κ l

end Cert.KernelIdeal.HostSide
end
-- ==== Proof.Blocks.lean ====
/-
  The geometry of the three windows' blocks of the embedding kernel's pipeline.

  The grid has 31 points. The label array (4 × 250000) is read in blocks of 4 × 8192 columns, block `t` starting at
  column 8192·t; the table (256 × 128) is read whole at every point; the result (250000 × 128) is written in blocks
  of 8192 rows × 128 lanes, block `t` starting at row 8192·t. Since 250000 = 30·8192 + 4240, the last block of the
  labels and of the result overhangs the array and its transfer is cut to the 4240 columns (rows) inside it. This
  module states, over the VALUES of coordinates: how many rows and columns each transfer moves, where an element
  of a block sits in its array, and that the result's blocks cover the result (row `r` is in block `r / 8192`).
-/
import proofs.«405251_j5772436046293_3_alg».proof.Proof.Gen.KernelIdeal.Points
import proofs.«405251_j5772436046293_3_alg».proof.Proof.Gen.KernelIdeal.Launch
import Idealize.ShloMosaic.Lib.Pipeline.Value
import Idealize.ShloMosaic.Lib.ValueIdx

noncomputable section

namespace Cert.KernelIdeal.Blocks

open Cert.KernelIdeal Cert.KernelIdeal.Gen
open Idealize.ShloMosaic

/-! ## The index maps and the cuts, point by point -/

/-- The block index of each window at point `t`: the labels' block moves along the columns with the point, the
    table's block stays at the origin, the result's block moves along the rows with the point. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The sizes of what the transfer at point `t` moves: a full block while it lies inside the array, and at the
    array's end what is left of the 250000 columns (rows). -/
theorem xsize_facts : ∀ t : Fin cfg0.N,
    win0_0.xsize (grid0.coords t) (0 : Fin 2) = 4
    ∧ win0_0.xsize (grid0.coords t) (1 : Fin 2) = min 8192 (250000 - 8192 * t.val)
    ∧ win0_1.xsize (grid0.coords t) (0 : Fin 2) = 256
    ∧ win0_1.xsize (grid0.coords t) (1 : Fin 2) = 128
    ∧ win0_2.xsize (grid0.coords t) (0 : Fin 2) = min 8192 (250000 - 8192 * t.val)
    ∧ win0_2.xsize (grid0.coords t) (1 : Fin 2) = 128 :=
  (by decide +kernel : ∀ t : Fin grid0.N, _)

theorem xsize2_rows (t : Fin cfg0.N) :
    win0_2.xsize (grid0.coords t) (0 : Fin 2) = min 8192 (250000 - 8192 * t.val) := (xsize_facts t).2.2.2.2.1
theorem xsize2_lanes (t : Fin cfg0.N) : win0_2.xsize (grid0.coords t) (1 : Fin 2) = 128 := (xsize_facts t).2.2.2.2.2
theorem xsize0_cols (t : Fin cfg0.N) :
    win0_0.xsize (grid0.coords t) (1 : Fin 2) = min 8192 (250000 - 8192 * t.val) := (xsize_facts t).2.1
theorem xsize0_rows (t : Fin cfg0.N) : win0_0.xsize (grid0.coords t) (0 : Fin 2) = 4 := (xsize_facts t).1
theorem xsize1_rows (t : Fin cfg0.N) : win0_1.xsize (grid0.coords t) (0 : Fin 2) = 256 := (xsize_facts t).2.2.1
theorem xsize1_lanes (t : Fin cfg0.N) : win0_1.xsize (grid0.coords t) (1 : Fin 2) = 128 := (xsize_facts t).2.2.2.1

/-! ## Where a block's element sits in its array

On each axis an element of the block at point `t` sits at the block index times the block's size plus its own
coordinate inside the block. -/

/-- Row `j 0` of the result's block at point `t` is row `8192·t + j 0` of the result. -/
theorem emb2_row (t : Fin cfg0.N) (j : (win0_2.xblock (grid0.coords t)).Idx) :
    (((win0_2.blk t).view.emb j : S250000x128.Idx) (0 : Fin 2)).val = 8192 * t.val + (j (0 : Fin 2)).val := by
  have e := (idx_facts t).2.2.2.2.1
  show win0_2.index t (0 : Fin 2) * 8192 + 1 * (j (0 : Fin 2)).val = _
  omega

/-- A lane of the result's block is the same lane of the result. -/
theorem emb2_lane (t : Fin cfg0.N) (j : (win0_2.xblock (grid0.coords t)).Idx) :
    (((win0_2.blk t).view.emb j : S250000x128.Idx) (1 : Fin 2)).val = (j (1 : Fin 2)).val := by
  have e := (idx_facts t).2.2.2.2.2
  show win0_2.index t (1 : Fin 2) * 128 + 1 * (j (1 : Fin 2)).val = _
  omega

/-- A row (slot) of the labels' block is the same row of the label array. -/
theorem emb0_row (t : Fin cfg0.N) (j : (win0_0.xblock (grid0.coords t)).Idx) :
    (((win0_0.blk t).view.emb j : S4x250000.Idx) (0 : Fin 2)).val = (j (0 : Fin 2)).val := by
  have e := (idx_facts t).1
  show win0_0.index t (0 : Fin 2) * 4 + 1 * (j (0 : Fin 2)).val = _
  omega

/-- Column `j 1` of the labels' block at point `t` is column `8192·t + j 1` of the label array. -/
theorem emb0_col (t : Fin cfg0.N) (j : (win0_0.xblock (grid0.coords t)).Idx) :
    (((win0_0.blk t).view.emb j : S4x250000.Idx) (1 : Fin 2)).val = 8192 * t.val + (j (1 : Fin 2)).val := by
  have e := (idx_facts t).2.1
  show win0_0.index t (1 : Fin 2) * 8192 + 1 * (j (1 : Fin 2)).val = _
  omega

/-- The table's block is the whole table: an element keeps its coordinates. -/
theorem emb1_val (t : Fin cfg0.N) (j : (win0_1.xblock (grid0.coords t)).Idx) (a : Fin 2) :
    (((win0_1.blk t).view.emb j : S256x128.Idx) a).val = (j a).val := by
  obtain ⟨-, -, e0, e1, -, -⟩ := idx_facts t
  match a with
  | ⟨0, _⟩ =>
    show win0_1.index t (0 : Fin 2) * 256 + 1 * (j (0 : Fin 2)).val = (j (0 : Fin 2)).val
    omega
  | ⟨1, _⟩ =>
    show win0_1.index t (1 : Fin 2) * 128 + 1 * (j (1 : Fin 2)).val = (j (1 : Fin 2)).val
    omega

/-! ## The result's blocks cover the result -/

/-- An index of the result is in point `t`'s block iff on each axis its coordinate is among those the transfer at
    `t` moves. -/
theorem mem_blk2 (t : Fin cfg0.N) (i : S250000x128.Idx) :
    i ∈ ((cfg0.win 2).blk t).view.set ↔ ∀ a : Fin 2, win0_2.index t a * S8192x128.size a ≤ (i a).val
      ∧ (i a).val < win0_2.index t a * S8192x128.size a + win0_2.xsize (grid0.coords t) a := by
  show i ∈ ((View.whole main_call0_v22).slice (win0_2.rect t)).set ↔ _
  rw [View.set_slice_whole, Rect.mem_set_unit]
  exact Iff.rfl

/-- Row `r` of the result is written back at point `r / 8192`: its block starts at row `8192·(r / 8192)` and has
    `min 8192 (250000 - 8192·(r / 8192))` rows, so `r` is among them; every lane is in every block. -/
theorem cover2 (i : S250000x128.Idx) :
    ∃ t : Fin cfg0.N, (cfg0.win 2).flush t = true ∧ i ∈ ((cfg0.win 2).blk t).view.set := by
  have h0 : (i (0 : Fin 2)).val < 250000 := (i 0).isLt
  have h1 : (i (1 : Fin 2)).val < 128 := (i 1).isLt
  have hN : cfg0.N = 31 := N_0
  obtain ⟨t, ht⟩ : ∃ t : Fin cfg0.N, t.val = (i (0 : Fin 2)).val / 8192 :=
    ⟨⟨(i (0 : Fin 2)).val / 8192, by rw [hN]; omega⟩, rfl⟩
  refine ⟨t, flush0_2 t, ?_⟩
  rw [mem_blk2]
  obtain ⟨-, -, -, -, e0, e1⟩ := idx_facts t
  obtain ⟨-, -, -, -, x0, x1⟩ := xsize_facts t
  intro a
  match a with
  | ⟨0, _⟩ =>
    show win0_2.index t (0 : Fin 2) * 8192 ≤ (i (0 : Fin 2)).val
      ∧ (i (0 : Fin 2)).val < win0_2.index t (0 : Fin 2) * 8192 + win0_2.xsize (grid0.coords t) (0 : Fin 2)
    rw [e0, x0]; omega
  | ⟨1, _⟩ =>
    show win0_2.index t (1 : Fin 2) * 128 ≤ (i (1 : Fin 2)).val
      ∧ (i (1 : Fin 2)).val < win0_2.index t (1 : Fin 2) * 128 + win0_2.xsize (grid0.coords t) (1 : Fin 2)
    rw [e1, x1]; omega

end Cert.KernelIdeal.Blocks

end
-- ==== Proof.ValueI.lean ====
/-
  The idealized kernel's result, as the specification's function of the argument arrays. Three steps:
  what the body stores at a point, cut to the rows inside the array, is that point's block of ONE
  whole-array function `G` — entry (g, l) of the (250000, 128) result is the lookup's entry
  (4g + l / 32, l mod 32), because lane l of a packed row belongs to slot l / 32 of group g, the
  staged labels' entry (s, g) is the label of cell 4g + s, and against the block-diagonal table the
  one-hot product has a single nonzero term; the result's blocks cover the array, so the array ends
  at `G`; and the host's reshape to (1000000, 32) reads entry (i, j) at (i / 4, (i mod 4)·32 + j),
  which undoes the packing.
-/
import proofs.«405251_j5772436046293_3_alg».proof.Proof.RunI
import proofs.«405251_j5772436046293_3_alg».proof.Proof.HostSide
import proofs.«405251_j5772436046293_3_alg».proof.Proof.Payload
import proofs.«405251_j5772436046293_3_alg».proof.Proof.Blocks
import proofs.«405251_j5772436046293_3_alg».proof.Proof.Spec
import Idealize.ShloMosaic.Lib.Pipeline.Value

set_option maxRecDepth 16384

noncomputable section

namespace Cert.KernelIdeal.ValueI

open Cert.KernelIdeal Cert.KernelIdeal.Gen Cert.KernelIdeal.Body Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The two argument arrays on core `c`. -/
abbrev bArr (c : Dev nD) : IVec Cert.Embed.SB 32 := m ((c : Thread nD τ).loc main_arg0)
abbrev wArr (c : Dev nD) : FVec Ideal Cert.Embed.SW .f32 := m ((c : Thread nD τ).loc main_arg1)

/-- A function of a rank-2 index sees only the coordinates' values. -/
theorem congr_idx2 {n0 n1 : Nat} {α : Type} (f : (⟨2, ![n0, n1]⟩ : Shape).Idx → α) {y y' : (⟨2, ![n0, n1]⟩ : Shape).Idx}
    (h0 : (y 0).val = (y' 0).val) (h1 : (y 1).val = (y' 1).val) : f y = f y' := by
  have e : y = y' := by
    funext a
    match a with
    | ⟨0, _⟩ => exact Fin.ext h0
    | ⟨1, _⟩ => exact Fin.ext h1
  rw [e]

/-- The packed result: entry (g, l) is the lookup's entry (4g + l / 32, l mod 32). -/
def G (c : Dev nD) : S250000x128.Idx → EReal := fun y =>
  Cert.Embed.effect (bArr m c) (wArr m c)
    (ix2 (⟨4 * (y 0).val + (y 1).val / 32, by have h0 := idx2_lt0 y; have h1 := idx2_lt1 y; omega⟩ : Fin 1000000)
         (⟨(y 1).val % 32, Nat.mod_lt _ (by decide)⟩ : Fin 32))

/-- The two staged blocks at point `t`, at their vector types. -/
abbrev L8 (c : Dev nD) (t : Fin cfg0.N) : Vec Ideal S4x8192 .i32 := labels8 m c t
abbrev T8 (c : Dev nD) (t : Fin cfg0.N) : Vec Ideal S256x128 .bf16 := iblk m c 1 t

/-! ## The staged arrays, read where a block sits -/

/-- The grid has 31 points. -/
theorem t_lt (t : Fin cfg0.N) : t.val < 31 := lt_of_lt_of_eq t.isLt N_0

/-- The table's block, at every point, is the block-diagonal table of the argument `w`. -/
theorem table_at (c : Dev nD) (t : Fin cfg0.N) (κ : Fin 256) (l : Fin 128) :
    View.ld (T8 m c t) rT (ix2 κ l)
      = if κ.val / 64 = l.val / 32 then wArr m c (ix2 (⟨κ.val % 64, Nat.mod_lt _ (by decide)⟩ : Fin 64) (⟨l.val % 32, Nat.mod_lt _ (by decide)⟩ : Fin 32)) else 0 := by
  refine Eq.trans ?_ (HostSide.V_table m c κ l)
  show (V m c main_call0_v21 : S256x128.Idx → EReal) ((win0_1.blk t).view.emb (rT.idx (ix2 κ l))) = _
  refine congr_idx2 _ ?_ ?_
  · rw [Blocks.emb1_val]; show 0 + 1 * κ.val = κ.val; omega
  · rw [Blocks.emb1_val]; show 0 + 1 * l.val = l.val; omega

/-- The labels' block at point `t`, on a column inside the array: entry (s, g) is the label of cell
    4·(8192 t + g) + s. -/
theorem labels_at (c : Dev nD) (hb : Cert.Embed.InRange (bArr m c)) (t : Fin cfg0.N) (s : Fin 4) (g : Fin 8192)
    (hg : g.val < win0_2.xsize (grid0.coords t) 0) (r : Fin 1000000) (hr : r.val = 4 * (8192 * t.val + g.val) + s.val) :
    labels8 m c t (ix2 s g) = bArr m c (ix2 r (0 : Fin 1)) := by
  have hx := Blocks.xsize2_rows t
  have ht := t_lt t
  have hbound : 8192 * t.val + g.val < 250000 := by omega
  have hm : win0_0.moved (grid0.coords t) (ix2 s g) = true := (win0_0.moved_iff (grid0.coords t) _).mpr fun a => by
    match a with
    | ⟨0, _⟩ => show s.val < win0_0.xsize (grid0.coords t) 0; rw [xsize_rows t]; exact s.isLt
    | ⟨1, _⟩ => show g.val < win0_0.xsize (grid0.coords t) 1; rw [xsize_cols t]; exact hg
  have hV := HostSide.V_labels m c hb s (⟨8192 * t.val + g.val, hbound⟩ : Fin 250000)
  unfold labels8 Window.fill; rw [dif_pos hm]
  refine Eq.trans ?_ (hV.trans (congr_idx2 (bArr m c) (by show 4 * (8192 * t.val + g.val) + s.val = r.val; omega) rfl))
  show (V m c main_call0_v3 : S4x250000.Idx → BitVec 32) ((win0_0.blk t).view.emb _) = _
  refine congr_idx2 _ ?_ ?_
  · rw [Blocks.emb0_row]
  · rw [Blocks.emb0_col]

/-! ## The stored block at an index -/

/-- The zero splat is zero. -/
theorem pay1_zero (x : (rZ).shape.Idx) : k0_pay1 (F := Ideal) x = 0 := by
  show Ideal.ofBits .f32 0x00000000#32 = 0
  exact Ideal.ofBits_zero_f32

/-- Lane `32 s + jj` of row `g` of the product block, inside the array: slot `s` of group `8192 t + g`. -/
theorem prod_at (c : Dev nD) (hb : Cert.Embed.InRange (bArr m c)) (t : Fin cfg0.N) (g : Fin 8192) (s : Fin 4) (jj : Fin 32)
    (hg : g.val < win0_2.xsize (grid0.coords t) 0) (R : Fin 1000000) (C : Fin 32)
    (hR : R.val = 4 * (8192 * t.val + g.val) + s.val) (hC : C.val = jj.val) :
    prod (F := Ideal) (L8 m c t) (T8 m c t) (ix2 g (⟨s.val * 32 + jj.val, by omega⟩ : Fin 128))
      = wArr m c (ix2 (Cert.Embed.rowOf (bArr m c) R) C) := by
  have hrl : Payload.rowLabel (View.ld (L8 m c t) rL0) (View.ld (L8 m c t) rL1) (View.ld (L8 m c t) rL2) (View.ld (L8 m c t) rL3) s g
      = bArr m c (ix2 R (0 : Fin 1)) := (rowLabel_ld (L8 m c t) s g).trans (labels_at m c hb t s g hg R hR)
  have hlab : (Payload.rowLabel (View.ld (L8 m c t) rL0) (View.ld (L8 m c t) rL1) (View.ld (L8 m c t) rL2) (View.ld (L8 m c t) rL3) s g).toNat < 64 := by
    rw [hrl]; exact Cert.Embed.toNat_lt_of_inRange hb R
  have hlk := Payload.pay2_lookup (View.ld (L8 m c t) rL0) (View.ld (L8 m c t) rL1) (View.ld (L8 m c t) rL2) (View.ld (L8 m c t) rL3)
    (View.ld (T8 m c t) rT) (wArr m c) (table_at m c t) g s jj hlab
  have hrow : (Payload.rowLabel (View.ld (L8 m c t) rL0) (View.ld (L8 m c t) rL1) (View.ld (L8 m c t) rL2) (View.ld (L8 m c t) rL3) s g).toNat
      = (Cert.Embed.rowOf (bArr m c) R).val := by
    rw [hrl, Cert.Embed.rowOf_val_of_inRange hb]
  exact hlk.trans (congr_idx2 (wArr m c) hrow hC.symm)

/-- What the body stores at point `t`, on a row inside the array, is the lookup's entry. -/
theorem outAt_apply (c : Dev nD) (hb : Cert.Embed.InRange (bArr m c)) (t : Fin cfg0.N) (g : Fin 8192) (s : Fin 4) (jj : Fin 32)
    (hg : g.val < win0_2.xsize (grid0.coords t) 0) (R : Fin 1000000) (C : Fin 32)
    (hR : R.val = 4 * (8192 * t.val + g.val) + s.val) (hC : C.val = jj.val) :
    outAt m c t (ix2 g (⟨s.val * 32 + jj.val, by omega⟩ : Fin 128)) = Cert.Embed.effect (bArr m c) (wArr m c) (ix2 R C) := by
  have hs := s.isLt; have hjj := jj.isLt
  have hp := prod_at m c hb t g s jj hg R C hR hC
  have hlater : View.canon [(⟨rW, prod (F := Ideal) (L8 m c t) (T8 m c t)⟩ : View.Piece (Elt Ideal) S8192x128 .f32)]
        (ix2 g (⟨s.val * 32 + jj.val, by omega⟩ : Fin 128))
      = wArr m c (ix2 (Cert.Embed.rowOf (bArr m c) R) C) := by
    rw [View.canon_unit_zero hz2 inb_S8192x128_S8192x128_0_0]; exact hp
  unfold Cert.Embed.effect outAt
  show _ = if R.val = 0 then (0 : EReal) else wArr m c (ix2 (Cert.Embed.rowOf (bArr m c) R) C)
  by_cases h0 : t.val = 0
  · rw [if_pos h0]; unfold outFirst
    by_cases hz : g.val = 0 ∧ s.val = 0
    · -- a cleared lane: the index is the patch's own element (0, jj)
      have hx : (ix2 g (⟨s.val * 32 + jj.val, by omega⟩ : Fin 128) : S8192x128.Idx) = rZ.emb (ix2 (0 : Fin 1) jj) := by
        funext a
        match a with
        | ⟨0, _⟩ => exact Fin.ext (by show g.val = 0 + 1 * 0; omega)
        | ⟨1, _⟩ => exact Fin.ext (by show s.val * 32 + jj.val = 0 + 1 * jj.val; omega)
      rw [hx, View.canon_cons_emb, pay1_zero, if_pos (by omega)]
    · -- any other index is outside the patch: a row below the first, or a lane past the 32nd
      have hnot : (ix2 g (⟨s.val * 32 + jj.val, by omega⟩ : Fin 128) : S8192x128.Idx) ∉ rZ.set := by
        rw [Rect.mem_set_unit]
        intro h
        have h0' := (h ⟨0, by decide⟩).2; have h1' := (h ⟨1, by decide⟩).2
        exact hz ⟨by have : g.val < 0 + 1 := h0'; omega, by have : s.val * 32 + jj.val < 0 + 32 := h1'; omega⟩
      rw [View.canon_cons_of_not_mem (⟨rZ, k0_pay1 (F := Ideal)⟩ : View.Piece (Elt Ideal) S8192x128 .f32) _ hnot]
      exact hlater.trans (if_neg (by omega)).symm
  · rw [if_neg h0]; unfold outLater
    exact hlater.trans (if_neg (by omega)).symm

/-! ## The result array -/

/-- What each point writes back is its block of `G`; the blocks cover the array: it ends at `G`. -/
theorem final2 (c : Dev nD) (hb : Cert.Embed.InRange (bArr m c)) : (dats m 0 c).arrAt 2 cfg0.N = G m c :=
  (dats m 0 c).arrAt_eq_of_cover 2 (G m c) (fun t _ => by
    funext j
    show outAt m c t (win0_2.xinj (grid0.coords t) j) = G m c ((win0_2.blk t).view.emb j)
    have hj1 : (j 1).val < 128 := lt_of_lt_of_eq (j 1).isLt (Blocks.xsize2_lanes t)
    have hj0 : (j 0).val < win0_2.xsize (grid0.coords t) 0 := (j 0).isLt
    have hj0' : (j 0).val < 8192 := lt_of_lt_of_le hj0 (by rw [Blocks.xsize2_rows t]; exact Nat.min_le_left _ _)
    have hrow := Blocks.emb2_row t j
    have hlane := Blocks.emb2_lane t j
    refine Eq.trans (congr_idx2 (outAt m c t)
      (y' := ix2 (⟨(j 0).val, hj0'⟩ : Fin 8192) (⟨(⟨(j 1).val / 32, by omega⟩ : Fin 4).val * 32 + (⟨(j 1).val % 32, Nat.mod_lt _ (by decide)⟩ : Fin 32).val, by omega⟩ : Fin 128))
      rfl (by show (j 1).val = (j 1).val / 32 * 32 + (j 1).val % 32; omega)) ?_
    unfold G
    exact outAt_apply m c hb t _ _ _ hj0 _ _
      (by show 4 * _ + _ / 32 = 4 * (8192 * t.val + (j 0).val) + (j 1).val / 32; rw [hrow, hlane])
      (by show _ % 32 = (j 1).val % 32; rw [hlane])) Blocks.cover2

/-! ## The kernel's run, over the specification -/

/-- Under labels in range, every weakly fair execution of the idealized kernel's @main terminates with its result
    the lookup `effect` of the two argument arrays, and those unchanged. -/
theorem kernel_run (hb : ∀ c : Dev nD, Cert.Embed.InRange (bArr m c)) :
    θ_run defs (onTc (τ := τ) (main (F := Ideal))) ⟨m, fun _ => 0, ρ⟩ (fun r => ∀ c : Dev nD,
      r.2.mem ((c.tc : Thread nD τ).loc main_v0) = Cert.Embed.effect (bArr m c) (wArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v0 (Pipeline.mem_restRefs_of main_v0 (by decide) (by decide))).trans (by
        funext y
        obtain ⟨i, jj, rfl⟩ : ∃ (i : Fin 1000000) (jj : Fin 32), y = ix2 i jj := ⟨y 0, y 1, eq_ix2 y⟩
        have hi := i.isLt; have hjj := jj.isLt
        rw [HostSide.tail_result m (dats m) c (G m c) (final2 m c (hb c)) i jj]
        unfold G
        exact congr_idx2 (Cert.Embed.effect (bArr m c) (wArr m c))
          (by show 4 * (i.val / 4) + (i.val % 4 * 32 + jj.val) / 32 = i.val; omega)
          (by show (i.val % 4 * 32 + jj.val) % 32 = jj.val; omega)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ValueI

end
-- ==== Proof.RefSide.lean ====
/-
  The reference's run and its value. The reference is a straight line of host operations once its two
  helper functions are substituted at their calls: the labels' column flattened, a negative label moved up
  by 64, the lookup of the table's rows (with a validity mask that replaces an out-of-range row by the
  not-a-number word), and row 0 overwritten by zeros. Its run ends with the result at the composed term
  `refOut` of the two arguments; for labels in [0, 64) that term is the specification's lookup.
-/
import proofs.«405251_j5772436046293_3_alg».proof.Proof.Spec
import proofs.«405251_j5772436046293_3_alg».proof.Proof.Gen.ReferenceIdeal
import Idealize.ShloMosaic.Lib.StableHlo.Run
import Idealize.ShloMosaic.Lib.StableHlo.Predicate
import Idealize.ShloMosaic.Lib.Pipeline.Value
import Idealize.ShloMosaic.PureOps.Reduce
import Idealize.ShloMosaic.PureOps.Ideal.Laws

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The composed term -/

/-- The labels as a vector: the column with its unit axis dropped. -/
def lab (b : IVec S1000000x1 32) : IVec S1000000 32 :=
  shapeCast S1000000 b shapeCasts_S1000000x1_S1000000

/-- A negative label moved up by the table's 64 rows, any other kept. -/
def norm (l : IVec S1000000 32) : IVec S1000000 32 :=
  select (cmpi .slt l (broadcastInDim S1000000 ![] bcast_S_S1000000 (constantI S_ 32 0#32)))
    (addi l (broadcastInDim S1000000 ![] bcast_S_S1000000 (constantI S_ 32 64#32))) l

/-- The normalised labels as a column again: the lookup's index table. -/
def col (l : IVec S1000000 32) : IVec S1000000x1 32 :=
  broadcastInDim S1000000x1 ![0] bcast_S1000000_S1000000x1_0 (norm l)

/-- Which rows' labels lie in [0, 63]. -/
def mask (c : IVec S1000000x1 32) : IVec S1000000 1 :=
  Host.reduce IntOp.andi
    (andi (cmpi .sge c (broadcastInDim S1000000x1 ![] bcast_S_S1000000x1 (constantI S_ 32 0#32)))
      (cmpi .sle c (broadcastInDim S1000000x1 ![0, 1] bcast_S1x1_S1000000x1_0_1
        (broadcastInDim S1x1 ![1] bcast_S1_S1x1_1 (constantI S1 32 63#32)))))
    (constantI S_ 1 1#1) reducesTo_S1000000x1_S1000000_d1 h_S_

/-- The looked-up rows, a row whose label is out of range replaced by the not-a-number word. -/
def taken (c : IVec S1000000x1 32) (w : FVec Ideal S64x32 .f32) : FVec Ideal S1000000x32 .f32 :=
  select (broadcastInDim S1000000x32 ![0] bcast_S1000000_S1000000x32_0 (mask c))
    (Host.gather gather_S64x32_S1000000x1_S1000000x32_1_0_n_n_0_1_132 w c)
    (broadcastInDim S1000000x32 ![] bcast_S_S1000000x32 (constant S_ .f32 0x7FC00000#32))

/-- What the reference computes from its two arguments' contents: the looked-up rows, row 0 overwritten by zeros. -/
def refOut (b : IVec S1000000x1 32) (w : FVec Ideal S64x32 .f32) : FVec Ideal S1000000x32 .f32 :=
  Host.scatter scatter_S1000000x32_S1_S32_0_0_0_0 (fun _ u => u) (taken (col (lab b)) w)
    (broadcastInDim S1 ![] bcast_S_S1 (constantI S_ 32 0#32))
    (broadcastInDim S32 ![] bcast_S_S32 (constant S_ .f32 0x00000000#32))

/-! ## The run -/

/-- The reference's 29 operations in order, the two helper functions' operations at their calls. -/
abbrev ops : List (HloOp τ sig (Elt Ideal)) :=
  [ reshape main_arg0 main_v0 rfl shapeCasts_S1000000x1_S1000000,
    TRef.nullary main_call0.c (constantI S_ 32 0#32),
    TRef.unary main_call0.c main_call0.v0 (broadcastInDim S1000000 ![] bcast_S_S1000000),
    TRef.binary (.of main_v0) main_call0.v0 main_call0.v1 (cmpi .slt),
    TRef.nullary main_call0.c_0 (constantI S_ 32 64#32),
    TRef.unary main_call0.c_0 main_call0.v2 (broadcastInDim S1000000 ![] bcast_S_S1000000),
    TRef.binary (.of main_v0) main_call0.v2 main_call0.v3 addi,
    TRef.ternary main_call0.v1 main_call0.v3 (.of main_v0) main_call0.call0.v0 select,
    TRef.unary main_call0.call0.v0 main_call0.v5 (broadcastInDim S1000000x1 ![0] bcast_S1000000_S1000000x1_0),
    TRef.nullary main_call0.c_1 (constantI S1 32 63#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_),
    TRef.binary (.of main_arg1) main_call0.v5 main_call0.v13 (fun x i => Host.gather gather_S64x32_S1000000x1_S1000000x32_1_0_n_n_0_1_132 x i),
    TRef.unary main_call0.v12 main_call0.v14 (broadcastInDim S1000000x32 ![0] bcast_S1000000_S1000000x32_0),
    TRef.nullary main_call0.cst (constant (F := Ideal) S_ .f32 0x7FC00000#32),
    TRef.unary main_call0.cst main_call0.v15 (broadcastInDim S1000000x32 ![] bcast_S_S1000000x32),
    TRef.ternary main_call0.v14 main_call0.v13 main_call0.v15 main_call0.v16 select,
    nullary main_c (constantI S_ 32 0#32),
    unary main_c main_v2 (broadcastInDim S1 ![] bcast_S_S1 : (⟨S_, .i32⟩ : BufTy).Contents (Elt Ideal) → (⟨S1, .i32⟩ : BufTy).Contents (Elt Ideal)),
    nullary main_cst (constant (F := Ideal) S_ .f32 0x00000000#32),
    unary main_cst main_v3 (broadcastInDim S32 ![] bcast_S_S32 : (⟨S_, .f32⟩ : BufTy).Contents (Elt Ideal) → (⟨S32, .f32⟩ : BufTy).Contents (Elt Ideal)),
    ternary main_v1 main_v2 main_v3 main_v4 ((fun x i u => Host.scatter scatter_S1000000x32_S1_S32_0_0_0_0 (fun _ b => b) x i u) : (⟨S1000000x32, .f32⟩ : BufTy).Contents (Elt Ideal) → (⟨S1, .i32⟩ : BufTy).Contents (Elt Ideal) → (⟨S32, .f32⟩ : BufTy).Contents (Elt Ideal) → (⟨S1000000x32, .f32⟩ : BufTy).Contents (Elt Ideal)) ]

set_option maxRecDepth 1024 in
/-- @main is that straight line: the helper functions' definitions unfolded at their calls, the sequencing reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., nullary_bufs_sub .., unary_bufs_sub .., ternary_bufs_sub ..⟩

/-! ## Contents moved to a buffer's own type and back -/

section Casts

/-- Contents moved to a buffer's own type and back are the contents. -/
theorem ofBuf_toBuf {T : BufTy} (x : TRef sig T) (v : T.Contents (Elt Ideal)) : x.ofBuf (x.toBuf v) = v := by
  obtain ⟨r, h, h2, h3⟩ := x
  subst h
  rfl

/-- At a reference whose type is the value's, the move is the identity. -/
theorem toBuf_of (r : Ref sig .tc) (h1 : r.ty = r.ty) (h2 : r.space ≠ .host) (h3 : r.isScoped = false)
    (v : r.ty.Contents (Elt Ideal)) : (TRef.of r h1 h2 h3).toBuf v = v := rfl
theorem ofBuf_of (r : Ref sig .tc) (h1 : r.ty = r.ty) (h2 : r.space ≠ .host) (h3 : r.isScoped = false)
    (v : r.ty.Contents (Elt Ideal)) : (TRef.of r h1 h2 h3).ofBuf v = v := rfl

/-- The looked-up rows' buffer has the rows' type. -/
theorem toBuf_main_v1 (X : FVec Ideal S1000000x32 .f32) :
    (TRef.of (T := ⟨S1000000x32, .f32⟩) main_v1).toBuf (Val := Elt Ideal) X = X := rfl

end Casts

set_option maxRecDepth 8192 in
/-- The fold of the operations at the result buffer is the composed term of the two arguments' contents: each
    operation's result read at its own buffer, the moves between a buffer's type and its value's removed. -/
theorem out_eq (V : Valuation τ sig (Elt Ideal)) :
    after ops V (main_v4 : DevRef τ sig) = refOut (V (main_arg0 : DevRef τ sig)) (V (main_arg1 : DevRef τ sig)) := by
  after_results_simp
  simp only [ofBuf_toBuf, toBuf_of, ofBuf_of]
  have hlab : (fun i => shapeCast main_v0.ty.shape (V (main_arg0 : DevRef τ sig)) shapeCasts_S1000000x1_S1000000 i)
      = lab (V (main_arg0 : DevRef τ sig)) := rfl
  rw [hlab, toBuf_main_v1]
  unfold refOut taken mask col norm
  rfl

set_option maxRecDepth 8192 in
/-- No operation writes the labels' buffer. -/
theorem arg0_eq (V : Valuation τ sig (Elt Ideal)) :
    after ops V (main_arg0 : DevRef τ sig) = V (main_arg0 : DevRef τ sig) := by
  after_results_simp

set_option maxRecDepth 8192 in
/-- No operation writes the table's buffer. -/
theorem arg1_eq (V : Valuation τ sig (Elt Ideal)) :
    after ops V (main_arg1 : DevRef τ sig) = V (main_arg1 : DevRef τ sig) := by
  after_results_simp

/-- From any memory with zero counters every weakly fair execution of the reference terminates with the result buffer at
    `refOut` of the two arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v4).trans (out_eq _), (h c main_arg0).trans (arg0_eq _),
      (h c main_arg1).trans (arg1_eq _)⟩)
    (run_seq scopedRefs_eq scopedSems_eq defs main (fun _ => ops) main_eq (fun _ => ops_sub) m ρ)

/-! ## Three operations read at an index, at any extents -/

section Generic
variable {α : Type}

abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowDims N R C wf).start (ix2 p q) idx 0 + (rowDims N R C wf).batchCoord (ix2 p q) 0
      + (rowDims N R C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx 1 + (rowDims N R C wf).batchCoord (ix2 p q) 1
      + (rowDims N R C wf).offCoord (ix2 p q) 1 = q.val
    rw [GatherDims.batchCoord_eq_zero _ _ _ List.not_mem_nil]
    have hs : (rowDims N R C wf).start (ix2 p q) idx 1 = 0 := by
      unfold GatherDims.start
      rw [dif_neg (show (1 : Fin 2) ∉ ([0] : List (Fin 2)) by decide)]
    have ho : (rowDims N R C wf).offCoord (ix2 p q) 1 = q.val := by
      unfold GatherDims.offCoord
      rw [dif_pos ((GatherDims.mem_sKept _ _).mpr ⟨(show (1 : Fin 2) ∉ ([0] : List (Fin 2)) by decide), List.not_mem_nil⟩)]
      rfl
    rw [hs, ho]
    omega

/-- A fold of overwrites leaves an index no step lands on as it was. -/
theorem foldl_set_of_not_mem {ι κ β : Type} [DecidableEq κ] (g : ι → κ) (v : ι → β) (i' : κ) :
    ∀ (L : List ι) (x : κ → β), (∀ n ∈ L, g n ≠ i') →
      L.foldl (fun r n => fun j => if j = g n then v n else r j) x i' = x i'
  | [], _, _ => rfl
  | a :: l, x, h => by
    rw [List.foldl_cons, foldl_set_of_not_mem g v i' l _ fun n hn => h n (List.mem_cons_of_mem _ hn)]
    exact if_neg fun e => h a List.mem_cons_self e.symm

/-- A fold of overwrites at pairwise distinct indices leaves, at the index a step lands on, that step's value. -/
theorem foldl_set_of_mem {ι κ β : Type} [DecidableEq κ] (g : ι → κ) (v : ι → β) (hg : Function.Injective g) (n0 : ι) :
    ∀ (L : List ι) (x : κ → β), L.Nodup → n0 ∈ L →
      L.foldl (fun r n => fun j => if j = g n then v n else r j) x (g n0) = v n0
  | [], _, _, h => nomatch h
  | a :: l, x, hn, h => by
    rw [List.foldl_cons]
    rcases List.mem_cons.1 h with rfl | hl
    · rw [foldl_set_of_not_mem g v (g n0) l _ fun n hnl e => (List.nodup_cons.1 hn).1 (hg e ▸ hnl)]
      exact if_pos rfl
    · exact foldl_set_of_mem g v hg n0 l _ (List.nodup_cons.1 hn).2 hl

abbrev rowScatter (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

theorem rowScatter_resultIdx {R C w : Nat} (hR : 0 < R) (wf : ScatterDims.WF ⟨2, ![R, C]⟩ ⟨1, ![1]⟩ ⟨1, ![C]⟩ [0] [0] [0] 0)
    (idx : IVec ⟨1, ![1]⟩ w) (hidx : (idx (ix1 (0 : Fin 1))).toInt = 0) (k : Fin C) :
    (rowScatter R C wf).resultIdx? (ix1 k) idx = some (ix2 (⟨0, hR⟩ : Fin R) k) := by
  have hs0 : (rowScatter R C wf).start (ix1 k) idx 0 = 0 := by
    unfold ScatterDims.start
    rw [dif_pos (show (0 : Fin 2) ∈ ([0] : List (Fin 2)) from List.mem_singleton.mpr rfl)]
    have hsi : (rowScatter R C wf).siIdx (ix1 k) ⟨List.idxOf (0 : Fin 2) (rowScatter R C wf).scatterDimsToOperandDims,
        List.idxOf_lt_length_iff.2 (List.mem_singleton.mpr rfl)⟩ = ix1 (0 : Fin 1) := by
      funext b; refine Fin.ext ?_
      match b with
      | ⟨0, _⟩ => rfl
    rw [hsi, hidx]
  have hs1 : (rowScatter R C wf).start (ix1 k) idx 1 = 0 := by
    unfold ScatterDims.start
    rw [dif_neg (show (1 : Fin 2) ∉ ([0] : List (Fin 2)) by decide)]
  have hw0 : (rowScatter R C wf).window (ix1 k) 0 = 0 := by
    unfold ScatterDims.window
    rw [dif_neg (show (0 : Fin 2) ∉ (rowScatter R C wf).sKept by
      simp [ScatterDims.sKept, Shape.kept, List.mem_filter])]
  have hw1 : (rowScatter R C wf).window (ix1 k) 1 = k.val := by
    unfold ScatterDims.window
    rw [dif_pos (show (1 : Fin 2) ∈ (rowScatter R C wf).sKept by
      simp [ScatterDims.sKept, Shape.kept, List.mem_filter, List.mem_finRange])]
    rfl
  unfold ScatterDims.resultIdx?
  have hall : ∀ a, 0 ≤ (rowScatter R C wf).start (ix1 k) idx a + (rowScatter R C wf).window (ix1 k) a ∧
      (rowScatter R C wf).start (ix1 k) idx a + (rowScatter R C wf).window (ix1 k) a < (⟨2, ![R, C]⟩ : Shape).size a := by
    intro a
    match a with
    | ⟨0, _⟩ =>
      show 0 ≤ (rowScatter R C wf).start (ix1 k) idx 0 + (rowScatter R C wf).window (ix1 k) 0 ∧
        (rowScatter R C wf).start (ix1 k) idx 0 + (rowScatter R C wf).window (ix1 k) 0 < (R : Int)
      rw [hs0, hw0]; omega
    | ⟨1, _⟩ =>
      show 0 ≤ (rowScatter R C wf).start (ix1 k) idx 1 + (rowScatter R C wf).window (ix1 k) 1 ∧
        (rowScatter R C wf).start (ix1 k) idx 1 + (rowScatter R C wf).window (ix1 k) 1 < (C : Int)
      rw [hs1, hw1]; have := k.isLt; omega
  rw [dif_pos hall]
  congr 1
  funext a
  refine Fin.ext ?_
  match a with
  | ⟨0, _⟩ =>
    show ((rowScatter R C wf).start (ix1 k) idx 0 + (rowScatter R C wf).window (ix1 k) 0).toNat = 0
    rw [hs0, hw0]; rfl
  | ⟨1, _⟩ =>
    show ((rowScatter R C wf).start (ix1 k) idx 1 + (rowScatter R C wf).window (ix1 k) 1).toNat = k.val
    rw [hs1, hw1]; omega

theorem rowScatter_resultIdx' {R C w : Nat} (hR : 0 < R) (wf : ScatterDims.WF ⟨2, ![R, C]⟩ ⟨1, ![1]⟩ ⟨1, ![C]⟩ [0] [0] [0] 0)
    (idx : IVec ⟨1, ![1]⟩ w) (hidx : (idx (ix1 (0 : Fin 1))).toInt = 0) (j : (⟨1, ![C]⟩ : Shape).Idx) :
    (rowScatter R C wf).resultIdx? j idx = some (ix2 (⟨0, hR⟩ : Fin R) (j 0)) := by
  obtain ⟨k, rfl⟩ : ∃ k : Fin C, j = ix1 k := ⟨j 0, eq_ix1 j⟩
  exact rowScatter_resultIdx hR wf idx hidx k

/-- A scatter of one window `[C]` at the start `[0]` into an `[R, C]` array, its body returning the update: row 0 is the
    update, every other row kept. -/
theorem scatter_row0_apply {R C w : Nat} (hR : 0 < R) (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (hidx : (idx (ix1 (0 : Fin 1))).toInt = 0)
    (upd : (⟨1, ![C]⟩ : Shape).Idx → α) (p : Fin R) (q : Fin C) :
    Host.scatter (rowScatter R C wf) (fun _ u => u) x idx upd (ix2 p q)
      = if p.val = 0 then upd (ix1 q) else x (ix2 p q) := by
  unfold Host.scatter
  simp only [rowScatter_resultIdx' hR wf idx hidx]
  by_cases hp : p.val = 0
  · rw [if_pos hp]
    have hp' : p = ⟨0, hR⟩ := Fin.ext hp
    subst hp'
    have hg : Function.Injective fun n : Fin (⟨1, ![C]⟩ : Shape).numel =>
        ix2 (⟨0, hR⟩ : Fin R) (((⟨1, ![C]⟩ : Shape).rowMajor.symm n) 0) := by
      intro n m e
      have e1 : ((⟨1, ![C]⟩ : Shape).rowMajor.symm n) 0 = ((⟨1, ![C]⟩ : Shape).rowMajor.symm m) 0 := congrFun e 1
      have e2 : (⟨1, ![C]⟩ : Shape).rowMajor.symm n = (⟨1, ![C]⟩ : Shape).rowMajor.symm m := by
        rw [eq_ix1 ((⟨1, ![C]⟩ : Shape).rowMajor.symm n), eq_ix1 ((⟨1, ![C]⟩ : Shape).rowMajor.symm m), e1]
      exact (⟨1, ![C]⟩ : Shape).rowMajor.symm.injective e2
    have := foldl_set_of_mem (fun n : Fin (⟨1, ![C]⟩ : Shape).numel =>
        ix2 (⟨0, hR⟩ : Fin R) (((⟨1, ![C]⟩ : Shape).rowMajor.symm n) 0))
      (fun n => upd ((⟨1, ![C]⟩ : Shape).rowMajor.symm n)) hg ((⟨1, ![C]⟩ : Shape).rowMajor (ix1 q))
      (List.finRange _) x (List.nodup_finRange _) (List.mem_finRange _)
    simp only [Equiv.symm_apply_apply] at this
    exact this
  · rw [if_neg hp]
    refine foldl_set_of_not_mem (fun n : Fin (⟨1, ![C]⟩ : Shape).numel =>
        ix2 (⟨0, hR⟩ : Fin R) (((⟨1, ![C]⟩ : Shape).rowMajor.symm n) 0))
      (fun n => upd ((⟨1, ![C]⟩ : Shape).rowMajor.symm n)) _ _ _ fun n _ e => hp ?_
    have := congrArg (fun i : (⟨2, ![R, C]⟩ : Shape).Idx => (i 0).val) e
    exact this.symm

/-- A reduction by `and` of an array of ones, from one, is one. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ fun n hn => hl n (List.mem_cons_of_mem _ hn)
    rw [h, hl a List.mem_cons_self]; rfl

theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl]
  exact foldl_andi_one x _ _ (hi _) fun i _ => hx i

end Generic

/-! ## Reading the layout operations at an index -/

section Reads
variable {α : Type}

/-- A column `[n, 1]` flattened to `[n]` reads, at `p`, the column at `(p, 0)`. -/
theorem shapeCast_col_apply {n : ℕ} (x : (⟨2, ![n, 1]⟩ : Shape).Idx → α) (h : (⟨2, ![n, 1]⟩ : Shape).ShapeCasts ⟨1, ![n]⟩)
    (p : Fin n) : shapeCast ⟨1, ![n]⟩ x h (ix1 p) = x (ix2 p (0 : Fin 1)) :=
  shapeCast_apply x h _ _ (by
    rw [Shape.rowMajor_val_two, Shape.rowMajor_val_one]
    show p.val * 1 + 0 = p.val
    omega)

/-- A vector `[n]` laid as a column `[n, 1]` reads, at `(p, 0)`, the vector at `p`. -/
theorem bcast_col_apply {n : ℕ} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  broadcastInDim_apply _ h v _ _ (fun a => by
    match a with
    | ⟨0, _⟩ =>
      show p.val = if n = 1 then 0 else p.val
      split
      · omega
      · rfl)

/-- A vector `[n]` laid along the rows of an `[n, m]` array reads, at `(p, q)`, the vector at `p`. -/
theorem bcast_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) :=
  broadcastInDim_apply _ h v _ _ (fun a => by
    match a with
    | ⟨0, _⟩ =>
      show p.val = if n = 1 then 0 else p.val
      split
      · omega
      · rfl)

/-- A scalar broadcast to any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply _ h v _ _ (fun a => a.elim0)

end Reads

/-! ## The value, for labels in range -/

section Value
open Idealize.ShloMosaic.StableHlo.Predicate (sge_iff_toNat sle_iff_toNat slt_iff_toNat toInt_eq_toNat_of_lt)

variable (b : IVec S1000000x1 32) (w : FVec Ideal S64x32 .f32)

/-- The flattened labels read the column. -/
theorem lab_apply (p : Fin 1000000) : lab b (ix1 p) = b (ix2 p (0 : Fin 1)) :=
  shapeCast_col_apply b shapeCasts_S1000000x1_S1000000 p

/-- A label in range is not moved: the normalised label is the label. -/
theorem norm_apply (hb : Cert.Embed.InRange b) (p : Fin 1000000) : norm (lab b) (ix1 p) = b (ix2 p (0 : Fin 1)) := by
  have hlt := Cert.Embed.toNat_lt_of_inRange hb p
  show Scalar.select (IntOp.cmpi .slt (lab b (ix1 p)) (0#32)) (IntOp.addi (lab b (ix1 p)) (64#32)) (lab b (ix1 p)) = _
  rw [lab_apply]
  have hne : ¬ IntOp.cmpi .slt (b (ix2 p (0 : Fin 1))) (0#32) = 1#1 := fun h => by
    have := (slt_iff_toNat (by omega) (by decide)).1 h
    exact Nat.not_lt_zero _ this
  rw [eq_zero_of_ne_one hne, select_zero]

/-- The lookup's index column reads the label. -/
theorem col_apply (hb : Cert.Embed.InRange b) (p : Fin 1000000) (z : Fin 1) :
    col (lab b) (ix2 p z) = b (ix2 p (0 : Fin 1)) :=
  (bcast_col_apply bcast_S1000000_S1000000x1_0 (norm (lab b)) p z).trans (norm_apply b hb p)

/-- Every label in range is valid: the mask is one everywhere. -/
theorem mask_apply (hb : Cert.Embed.InRange b) (p : Fin 1000000) : mask (col (lab b)) (ix1 p) = 1#1 := by
  refine reduce_andi_of_all_one _ _ _ _ _ (fun i => ?_) (fun _ => rfl)
  obtain ⟨p', z, rfl⟩ : ∃ (p' : Fin 1000000) (z : Fin 1), i = ix2 p' z := ⟨i 0, i 1, eq_ix2 i⟩
  have hlt := Cert.Embed.toNat_lt_of_inRange hb p'
  show IntOp.andi (IntOp.cmpi .sge (col (lab b) (ix2 p' z)) (0#32)) (IntOp.cmpi .sle (col (lab b) (ix2 p' z)) (63#32)) = 1#1
  rw [col_apply b hb p' z,
    (sge_iff_toNat (by omega) (by decide)).2 (Nat.zero_le _),
    (sle_iff_toNat (by omega) (by decide)).2 (show (b (ix2 p' (0 : Fin 1))).toNat ≤ (63#32 : BitVec 32).toNat by
      show _ ≤ 63; omega)]
  rfl

/-- The looked-up row, for labels in range: the table's row the label names. -/
theorem taken_apply (hb : Cert.Embed.InRange b) (p : Fin 1000000) (q : Fin 32) :
    taken (col (lab b)) w (ix2 p q) = w (ix2 (Cert.Embed.rowOf b p) q) := by
  have hlt := Cert.Embed.toNat_lt_of_inRange hb p
  unfold taken
  rw [select_apply, bcast_rows_apply bcast_S1000000_S1000000x32_0 (mask (col (lab b))) p q, mask_apply b hb p, select_one]
  refine (gather_rows_apply (N := 64) (R := 1000000) (C := 32) (by omega)
    gather_S64x32_S1000000x1_S1000000x32_1_0_n_n_0_1_132_wf w (col (lab b)) p q).trans ?_
  congr 1
  funext a
  match a with
  | ⟨0, _⟩ =>
    refine Fin.ext ?_
    show min (col (lab b) (ix2 p (0 : Fin 1))).toInt.toNat (64 - 1) = (b (ix2 p (0 : Fin 1))).toNat % 64
    rw [col_apply b hb p 0, toInt_eq_toNat_of_lt (by omega), Int.toNat_natCast, Nat.mod_eq_of_lt hlt]
    omega
  | ⟨1, _⟩ => rfl

/-- For labels in [0, 64) the reference's composed term is the lookup with row 0 cleared. -/
theorem refOut_eq (b : IVec S1000000x1 32) (w : FVec Ideal S64x32 .f32) (hb : Cert.Embed.InRange b) :
    refOut b w = Cert.Embed.effect b w := by
  funext j
  obtain ⟨p, q, rfl⟩ : ∃ (p : Fin 1000000) (q : Fin 32), j = ix2 p q := ⟨j 0, j 1, eq_ix2 j⟩
  refine (scatter_row0_apply (R := 1000000) (C := 32) (by omega) scatter_S1000000x32_S1_S32_0_0_0_0_wf
    (taken (col (lab b)) w) (broadcastInDim S1 ![] bcast_S_S1 (constantI S_ 32 0#32)) (by decide)
    (broadcastInDim S32 ![] bcast_S_S32 (constant (F := Ideal) S_ .f32 0x00000000#32)) p q).trans ?_
  show (if p.val = 0 then Ideal.ofBits .f32 0x00000000#32 else taken (col (lab b)) w (ix2 p q))
    = if p.val = 0 then (0 : EReal) else w (ix2 (Cert.Embed.rowOf b p) q)
  rw [Ideal.ofBits_zero_f32, taken_apply b w hb p q]

end Value

end Cert.ReferenceIdeal.RefValue

end
-- ==== Proof.PreRange.lean ====
/-
  The printed precondition, read back. The precondition is the conjunction of two universally
  quantified statements, each printed as a reduction by "and" over a whole array: every entry of
  the table is finite, and every label `b` satisfies `0 ≤ b` and `b < 64` as a signed word. From
  "the conjunction is true" this module extracts the second statement at each row, which is
  exactly `Cert.Embed.InRange`.
-/
import proofs.«405251_j5772436046293_3_alg».proof.Pre_finite_inputs
import proofs.«405251_j5772436046293_3_alg».proof.Proof.Spec
import Idealize.ShloMosaic.Lib.ReduceAll
import Idealize.ShloMosaic.Lib.StableHlo.Predicate
import Idealize.ShloMosaic.Lib.Affine
import Idealize.ShloMosaic.Lib.ValueIdx

noncomputable section

namespace Cert.Embed.PreRange

open Idealize.ShloMosaic Idealize.ShloMosaic.ValueIdx

/-- The scalar shape has exactly one index. -/
instance : Subsingleton Cert.Pre_finite_inputs.S_.Idx := ⟨fun a b => funext fun d => d.elim0⟩

/-- If the printed precondition holds, every label lies in `[0, 64)` as a signed word. -/
theorem inRange_of_pre {F : FTy → Type} [FloatOps F] [Cert.Pre_finite_inputs.Facts]
    (b : IVec Cert.Pre_finite_inputs.S1000000x1 32) (w : FVec F Cert.Pre_finite_inputs.S64x32 .f32)
    (h : Cert.Pre_finite_inputs.fn (F := F) b w = fun _ => 1#1) : Cert.Embed.InRange b := by
  intro i
  -- the conjunction at the one scalar index
  have h0 := congrFun h ValueIdx.ix0
  dsimp only [Cert.Pre_finite_inputs.fn] at h0
  -- split the outer "and": keep the labels' half
  have hlab := (IntOp.andi_eq_one.1 h0).2
  -- the reduction by "and" is true, so its operand is true at row i
  have hel := Host.reduce_andi_all _ _ _ _ _ hlab (ix2 i (0 : Fin 1))
  -- the operand at row i is the "and" of the two comparisons against the broadcast constants
  obtain ⟨hge, hlt⟩ := IntOp.andi_eq_one.1 hel
  have hge' := IntOp.cmpi_sge.1 hge
  have hlt' := IntOp.cmpi_slt.1 hlt
  have e0 : (0#32 : BitVec 32).toInt = 0 := by decide
  have e64 : (64#32 : BitVec 32).toInt = 64 := by decide
  refine ⟨?_, ?_⟩
  · rw [← e0]; exact hge'
  · rw [← e64]; exact hlt'

end Cert.Embed.PreRange

end
-- ==== Proof.lean ====
/-
  The claim: an embedding lookup computed two ways agrees on labels in range.

  The kernel program clamps the million batch labels to [0, 63], packs four cells to a row (the
  labels as a 4 × 250000 array, entry (s, g) the label of cell 4g + s), builds a 256 × 128
  block-diagonal table of four copies of the 64 × 32 table, and multiplies, block by block of
  8192 groups, the four one-hot vectors of a group's labels with that table: lane l of packed row g
  is then the table's entry (label of cell 4g + l / 32, l mod 32), a sum with a single nonzero term.
  The grid's first point clears the first 32 lanes of row 0, and the row-major reshape to
  1000000 × 32 undoes the packing. The reference gathers the table's rows at the labels and writes
  zeros over row 0. Both are `Cert.Embed.effect` of the two argument arrays when every label lies in
  [0, 64) — the added conjunct of the precondition: outside it the kernel clamps a label where the
  reference wraps a negative one and marks the others invalid.

  The frames: each program terminates without a fault and leaves its arguments unchanged. The
  word-level kernel's needs nothing of the values (its staging buffers' contents are forgotten); the
  idealized kernel's and the reference's are their value runs with the result dropped. The ideal
  pass rewrote nothing, so `preserves` is `True`.
-/
import proofs.«405251_j5772436046293_3_alg».proof.Defs
import proofs.«405251_j5772436046293_3_alg».proof.Proof.Gen.Kernel
import proofs.«405251_j5772436046293_3_alg».proof.Proof.Gen.KernelIdeal
import proofs.«405251_j5772436046293_3_alg».proof.Proof.Gen.ReferenceIdeal
import proofs.«405251_j5772436046293_3_alg».proof.Proof.Gen.Pre_finite_inputs
import proofs.«405251_j5772436046293_3_alg».proof.Proof.FrameK
import proofs.«405251_j5772436046293_3_alg».proof.Proof.ValueI
import proofs.«405251_j5772436046293_3_alg».proof.Proof.RefSide
import proofs.«405251_j5772436046293_3_alg».proof.Proof.PreRange
import Idealize.ShloMosaic.Adequacy
import Idealize.ShloMosaic.Init

noncomputable section

namespace Cert.Proof

open Idealize.ShloMosaic Idealize.ShloMosaic.TcCoe Idealize.SL.Sem

/-- Under the precondition every label of the kernel's first argument is in range, on every core. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Embed.InRange (m ((c.tc : Thread Cert.KernelIdeal.nD Cert.KernelIdeal.τ).loc Cert.KernelIdeal.main_arg0)) :=
  Cert.Embed.PreRange.inRange_of_pre _ _ (h c)

/-- The word-level kernel terminates and keeps its arguments. -/
theorem frame_k : Cert.frame_Kernel := fun m ρ _ => Cert.Kernel.FrameK.frame (F := Bits) m ρ

/-- The idealized kernel's frame: its value run with the result dropped. -/
theorem frame_ki : Cert.frame_KernelIdeal := fun m ρ h =>
  (θ_run Cert.KernelIdeal.defs _ _).mono (fun _ hh c => ⟨(hh c).2.1, (hh c).2.2⟩)
    (Cert.KernelIdeal.ValueI.kernel_run m ρ (inRange_of_pre m h))

/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end at the lookup of those arguments. -/
theorem algebraic : Cert.algebraic_KernelIdeal_ReferenceIdeal := by
  intro m ρ m' ρ' hpre hagree
  refine ⟨fun c => Cert.Embed.effect
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ValueI.kernel_run m ρ (inRange_of_pre m hpre), ?_⟩
  refine (θ_run Cert.ReferenceIdeal.defs _ _).mono (fun _ h c => ⟨(h c).1.trans ?_, (h c).2⟩)
    (Cert.ReferenceIdeal.RefValue.run m' ρ')
  rw [(hagree c).1, (hagree c).2]
  exact Cert.ReferenceIdeal.RefValue.refOut_eq _ _ (inRange_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
